-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x800000 : Shape := ⟨2, ![2, 800000]⟩
abbrev S4096x128 : Shape := ⟨2, ![4096, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S50000x1 : S_.BroadcastsInDim S50000x1 (![] : Fin 0 → Fin S50000x1.rank)
  reducesTo_S50000x1_S_d0_1 : S50000x1.ReducesTo [0, 1] S_

variable [Facts]

def fn_part1 {F : FTy → Type} [FloatOps F] (main_arg0 : IVec S50000x1 32) (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S50000x1 32 := broadcastInDim S50000x1 ![] bcast_S_S50000x1 main_c_8
  let main_v25 : IVec S50000x1 1 := cmpi .sge main_arg0 main_v24
  let main_c_9 : IVec S_ 32 := constantI S_ 32 4096#32
  let main_v26 : IVec S50000x1 32 := broadcastInDim S50000x1 ![] bcast_S_S50000x1 main_c_9
  let main_v27 : IVec S50000x1 1 := cmpi .slt main_arg0 main_v26
  let main_v28 : IVec S50000x1 1 := andi main_v25 main_v27
  let main_c_10 : IVec S_ 1 := constantI S_ 1 1#1
  let main_v29 : IVec S_ 1 := (fun x v => Host.reduce IntOp.andi x v reducesTo_S50000x1_S_d0_1 h_S_) main_v28 main_c_10
  let main_v30 : IVec S_ 1 := andi main_v23 main_v29
  main_v30

def fn {F : FTy → Type} [FloatOps F] (main_arg0 : IVec S50000x1 32) (main_arg1 : IVec S2x800000 32) (main_arg2 : FVec F S4096x128 .f32) (main_arg3 : FVec F S128x256 .f32) (main_arg4 : FVec F S256 .f32) (main_arg5 : FVec F S256x128 .f32) (main_arg6 : FVec F S128 .f32) : IVec S_ 1 :=
  let main_v0 : FVec F S4096x128 .f32 := Host.absf main_arg2
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg0 main_arg6 main_v13 main_v16
-- ==== Kernel.lean ====
abbrev S50000x1 : Shape := ⟨2, ![50000, 1]⟩
abbrev S2x800000 : Shape := ⟨2, ![2, 800000]⟩
abbrev S4096x128 : Shape := ⟨2, ![4096, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S1000x1 : Shape := ⟨2, ![1000, 1]⟩
abbrev S1000x128 : Shape := ⟨2, ![1000, 128]⟩
abbrev S1000x4096 : Shape := ⟨2, ![1000, 4096]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 89
  | .vmem => 25
  | .smem => 0
  | _ => 0

abbrev bufTy : (tb : Table) → Fin (tcTables nBuf tb) → BufTy
  | .hbm, ⟨0, _⟩ => ⟨S50000x1, .i32⟩
  | .hbm, ⟨1, _⟩ => ⟨S2x800000, .i32⟩
  | .hbm, ⟨2, _⟩ => ⟨S4096x128, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S4096x128, .bf16⟩
  | .hbm, ⟨50, _⟩ => ⟨S50000x128, .f32⟩
  | .hbm, ⟨51, _⟩ => ⟨S50000x256, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x256, .f32⟩
  | .hbm, ⟨62, _⟩ => ⟨S850000x256, .f32⟩
  | .hbm, ⟨63, _⟩ => ⟨S850000x256, .f32⟩
  | .hbm, ⟨64, _⟩ => ⟨S_, .f32⟩
  | .hbm, ⟨65, _⟩ => ⟨S50000x256, .f32⟩
  | .hbm, ⟨66, _⟩ => ⟨S850000x1, .i32⟩
  | .hbm, ⟨67, _⟩ => ⟨S50000x256, .f32⟩
  | .hbm, ⟨68, _⟩ => ⟨S1x256, .f32⟩
  | .hbm, ⟨69, _⟩ => ⟨S50000x256, .f32⟩
  | .hbm, ⟨70, _⟩ => ⟨S50000x128, .f32⟩
  | .hbm, ⟨71, _⟩ => ⟨S850000x1, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x128, .f32⟩
  | .hbm, ⟨82, _⟩ => ⟨S850000x128, .f32⟩
  | .hbm, ⟨83, _⟩ => ⟨S_, .f32⟩
  | .hbm, ⟨84, _⟩ => ⟨S50000x128, .f32⟩
  | .hbm, ⟨85, _⟩ => ⟨S850000x1, .i32⟩
  | .hbm, ⟨86, _⟩ => ⟨S50000x128, .f32⟩
  | .hbm, ⟨87, _⟩ => ⟨S1x128, .f32⟩
  | .hbm, ⟨88, _⟩ => ⟨S50000x128, .f32⟩
  | .local _ .vmem, ⟨0, _⟩ => ⟨S1000x1, .i32⟩
  | .local _ .vmem, ⟨1, _⟩ => ⟨S1000x1, .i32⟩
  | .local _ .vmem, ⟨2, _⟩ => ⟨S4096x128, .bf16⟩
  | .local _ .vmem, ⟨3, _⟩ => ⟨S1000x128, .f32⟩
  | .local _ .vmem, ⟨4, _⟩ => ⟨S1000x128, .f32⟩
  | .local _ .vmem, ⟨5, _⟩ => ⟨S5000x128, .f32⟩
  | .local _ .vmem, ⟨6, _⟩ => ⟨S5000x128, .f32⟩
  | .local _ .vmem, ⟨7, _⟩ => ⟨S128x256, .f32⟩
  | .local _ .vmem, ⟨8, _⟩ => ⟨S5000x256, .f32⟩
  | .local _ .vmem, ⟨9, _⟩ => ⟨S5000x256, .f32⟩
  | .local _ .vmem, ⟨10, _⟩ => ⟨S5000x256, .f32⟩
  | .local _ .vmem, ⟨11, _⟩ => ⟨S5000x256, .f32⟩
  | .local _ .vmem, ⟨12, _⟩ => ⟨S1x256, .f32⟩
  | .local _ .vmem, ⟨13, _⟩ => ⟨S5000x256, .f32⟩
  | .local _ .vmem, ⟨14, _⟩ => ⟨S5000x256, .f32⟩
  | .local _ .vmem, ⟨15, _⟩ => ⟨S5000x256, .f32⟩
  | .local _ .vmem, ⟨16, _⟩ => ⟨S5000x256, .f32⟩
  | .local _ .vmem, ⟨17, _⟩ => ⟨S256x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | _, _ => ⟨S50000x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bitsLt_bf16_f32 : FTy.bits .bf16 < FTy.bits .f32
  inb_S1000x1_S1000x1_0_0 : ∀ a, (![0, 0] : Fin 2 → Nat) a + S1000x1.size a ≤ S1000x1.size a
  h_S1000x1 : 0 < S1000x1.numel
  iota_S1000x4096_d1_w32 : S1000x4096.Iotas .tc 32 [1]
  broadcasts_S1000x1_S1000x4096 : S1000x1.Broadcasts S1000x4096
  natLt_1_32 : 1 < 32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1000x128_S1000x128_0_0 : ∀ a, (![0, 0] : Fin 2 → Nat) a + S1000x128.size a ≤ S1000x128.size a
  h_S1000x128 : 0 < S1000x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  shapeCasts_S5000x256_S5000x256 : S5000x256.ShapeCasts S5000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S256x128_S256x128_0_0 : ∀ a, (![0, 0] : Fin 2 → Nat) a + S256x128.size a ≤ S256x128.size a
  h_S256x128 : 0 < S256x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1000x4096_S4096x128_S1000x128_1_0_0_1_n_n_wf : DotDims.WF S1000x4096 S4096x128 S1000x128 [1] [0] [0] [1] [] []
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x128_S5000x128_1_0_0_1_n_n_wf : DotDims.WF S5000x256 S256x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x1.size a ≤ S50000x1.size a
  hwx0_0 : ∀ i : grid0.Coords, EltTy.bits .i32 = 32 ∨ (Rect.block (s := S50000x1) S1000x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .bf16 = 32 ∨ (Rect.block (s := S4096x128) S4096x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S50000x128.size a
  hwx0_2 : ∀ i : grid0.Coords, EltTy.bits .f32 = 32 ∨ (Rect.block (s := S50000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x256.size a ≤ S50000x256.size a
  hwx2_2 : ∀ i : grid2.Coords, EltTy.bits .f32 = 32 ∨ (Rect.block (s := S50000x256) S5000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1000x4096_S4096x128_S1000x128_1_0_0_1_n_n : DotDims S1000x4096 S4096x128 S1000x128 where
  lhsContracting := [1]
  rhsContracting := [0]
  lhsNonContracting := [0]
  rhsNonContracting := [1]
  lhsBatch := []
  rhsBatch := []
  wf := dot_S1000x4096_S4096x128_S1000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_arg0) S1000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v49) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S50000x1 : Shape := ⟨2, ![50000, 1]⟩
abbrev S2x800000 : Shape := ⟨2, ![2, 800000]⟩
abbrev S4096x128 : Shape := ⟨2, ![4096, 128]⟩
abbrev S128x256 : Shape := ⟨2, ![128, 256]⟩
abbrev S256 : Shape := ⟨1, ![256]⟩
abbrev S256x128 : Shape := ⟨2, ![256, 128]⟩
abbrev S128 : Shape := ⟨1, ![128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S50000x256 : Shape := ⟨2, ![50000, 256]⟩
abbrev S850000x256 : Shape := ⟨2, ![850000, 256]⟩
abbrev S1x256 : Shape := ⟨2, ![1, 256]⟩
abbrev S850000x128 : Shape := ⟨2, ![850000, 128]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S50000x1, .i32⟩
  | .hbm, ⟨1, _⟩ => ⟨S2x800000, .i32⟩
  | .hbm, ⟨2, _⟩ => ⟨S4096x128, .f32⟩
  | .hbm, ⟨3, _⟩ => ⟨S128x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S50000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000, .i32⟩
  | .hbm, ⟨50, _⟩ => ⟨S_, .i32⟩
  | .hbm, ⟨51, _⟩ => ⟨S50000, .i32⟩
  | .hbm, ⟨52, _⟩ => ⟨S50000, .i1⟩
  | .hbm, ⟨53, _⟩ => ⟨S_, .i32⟩
  | .hbm, ⟨54, _⟩ => ⟨S50000, .i32⟩
  | .hbm, ⟨55, _⟩ => ⟨S50000, .i32⟩
  | .hbm, ⟨56, _⟩ => ⟨S50000, .i32⟩
  | .hbm, ⟨57, _⟩ => ⟨S50000x1, .i32⟩
  | .hbm, ⟨58, _⟩ => ⟨S50000x128, .f32⟩
  | .hbm, ⟨59, _⟩ => ⟨S50000x256, .f32⟩
  | .hbm, ⟨60, _⟩ => ⟨S850000x1, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x256, .f32⟩
  | .hbm, ⟨70, _⟩ => ⟨S850000x256, .f32⟩
  | .hbm, ⟨71, _⟩ => ⟨S850000x256, .f32⟩
  | .hbm, ⟨72, _⟩ => ⟨S_, .f32⟩
  | .hbm, ⟨73, _⟩ => ⟨S50000x256, .f32⟩
  | .hbm, ⟨74, _⟩ => ⟨S850000x1, .i32⟩
  | .hbm, ⟨75, _⟩ => ⟨S50000x256, .f32⟩
  | .hbm, ⟨76, _⟩ => ⟨S1x256, .f32⟩
  | .hbm, ⟨77, _⟩ => ⟨S50000x256, .f32⟩
  | .hbm, ⟨78, _⟩ => ⟨S50000x256, .f32⟩
  | .hbm, ⟨79, _⟩ => ⟨S_, .f32⟩
  | .hbm, ⟨80, _⟩ => ⟨S50000x256, .f32⟩
  | .hbm, ⟨81, _⟩ => ⟨S50000x256, .f32⟩
  | .hbm, ⟨82, _⟩ => ⟨S50000x128, .f32⟩
  | .hbm, ⟨83, _⟩ => ⟨S850000x1, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000x128, .f32⟩
  | .hbm, ⟨93, _⟩ => ⟨S850000x128, .f32⟩
  | .hbm, ⟨94, _⟩ => ⟨S850000x128, .f32⟩
  | .hbm, ⟨95, _⟩ => ⟨S_, .f32⟩
  | .hbm, ⟨96, _⟩ => ⟨S50000x128, .f32⟩
  | .hbm, ⟨97, _⟩ => ⟨S850000x1, .i32⟩
  | .hbm, ⟨98, _⟩ => ⟨S50000x128, .f32⟩
  | .hbm, ⟨99, _⟩ => ⟨S1x128, .f32⟩
  | .hbm, ⟨100, _⟩ => ⟨S50000x128, .f32⟩
  | .hbm, ⟨101, _⟩ => ⟨S50000x128, .f32⟩
  | _, _ => ⟨S50000x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_v41 : Ref sig .tc := ⟨.hbm, 62, rfl⟩
abbrev main_v42 : Ref sig .tc := ⟨.hbm, 63, rfl⟩
abbrev main_c_10 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000x1_S50000 : S50000x1.ShapeCasts S50000
  bcast_S50000_S50000x1_0 : S50000.BroadcastsInDim S50000x1 (![0] : Fin 1 → Fin S50000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S4096x128_S50000x1_S50000x128_1_0_n_n_0_1_1128_wf : GatherDims.WF S4096x128 S50000x1 S50000x128 [1] [0] [] [0] [] 1 ![1, 128]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S4096x128_S50000x1_S50000x128_1_0_n_n_0_1_1128 : GatherDims S4096x128 S50000x1 S50000x128 where
  offsetDims := [1]
  collapsedSliceDims := [0]
  operandBatchingDims := []
  startIndicesBatchingDims := []
  startIndexMap := [0]
  indexVectorDim := 1
  sliceSizes := ![1, 128]
  wf := gather_S4096x128_S50000x1_S50000x128_1_0_n_n_0_1_1128_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

class Facts : Prop extends Facts₀ where

variable [Facts]
-- ==== Proof.PreRange.lean ====
/-
  What the precondition says of the ids: each one is a row number of the table, 0 ≤ id < 4096 as a signed integer.
-/
import proofs.«412266_j28767690948708_1_alg».proof.Pre_finite_inputs
import Idealize.ShloMosaic.Lib.StableHlo.Predicate
import Idealize.ShloMosaic.Lib.ReduceAll
import Idealize.ShloMosaic.Lib.ValueIdx

noncomputable section

namespace Cert.Pre_finite_inputs.Range

open Cert.Pre_finite_inputs Idealize.ShloMosaic

/-- Under the precondition every id lies in the table's row range. -/
theorem ids_in_range [Cert.Pre_finite_inputs.Facts] {F : FTy → Type} [FloatOps F] (a0 : IVec S50000x1 32) (a1 : IVec S2x800000 32) (a2 : FVec F S4096x128 .f32)
    (a3 : FVec F S128x256 .f32) (a4 : FVec F S256 .f32) (a5 : FVec F S256x128 .f32) (a6 : FVec F S128 .f32)
    (h : Cert.Pre_finite_inputs.fn (F := F) a0 a1 a2 a3 a4 a5 a6 = fun _ => 1#1) (i : S50000x1.Idx) :
    0 ≤ (a0 i).toInt ∧ (a0 i).toInt < 4096 := by
  -- the precondition's word at its one index, with its chain of conjunctions in view
  have h0 := congrFun h ValueIdx.ix0
  unfold Cert.Pre_finite_inputs.fn at h0
  dsimp only at h0
  unfold Cert.Pre_finite_inputs.fn_part1 at h0
  dsimp only at h0
  -- the last conjunct is the conjunction over all ids of the two comparisons
  have hlast := (IntOp.andi_eq_one.1 h0).2
  haveI : Subsingleton S_.Idx := ⟨fun a b => funext fun d => d.elim0⟩
  have hi := Host.reduce_andi_all _ _ _ _ _ hlast i
  -- at id i: both comparisons hold, against the broadcast constants 0 and 4096
  obtain ⟨hge, hlt⟩ := IntOp.andi_eq_one.1 hi
  have hge' : (0#32 : BitVec 32).toInt ≤ (a0 i).toInt := IntOp.cmpi_sge.1 hge
  have hlt' : (a0 i).toInt < (4096#32 : BitVec 32).toInt := IntOp.cmpi_slt.1 hlt
  have e0 : (0#32 : BitVec 32).toInt = 0 := by decide
  have e1 : (4096#32 : BitVec 32).toInt = 4096 := by decide
  exact ⟨e0 ▸ hge', e1 ▸ hlt'⟩

end Cert.Pre_finite_inputs.Range

end
-- ==== Proof.RefValue.lean ====
/-
  The reference's side of the value claim: its run read back one operation at a time.
-/
import proofs.«412266_j28767690948708_1_alg».proof.Defs
import proofs.«412266_j28767690948708_1_alg».proof.Proof.RefRun
import proofs.«412266_j28767690948708_1_alg».proof.Proof.RefRead

noncomputable section

namespace Cert.ReferenceIdeal.RefValue

end Cert.ReferenceIdeal.RefValue

end
-- ==== Proof.HostChainA.lean ====
/-
  The host operations before the first region, read back. They compute, from the edge list alone, the sources and
  targets with one self loop per node appended, each node's degree, its inverse square root where positive, and the
  per-edge weight (the product of the two ends' inverse square roots); and they change the table's format. Each is
  the reference's own stage of the same name, applied to the same edge list: the two programs share this text.
  A stretch is read at an arbitrary valuation, so that the stretches compose by rewriting and no long fold is ever
  evaluated.
-/
import proofs.«412266_j28767690948708_1_alg».proof.Proof.Gen.KernelIdeal.Frame
import proofs.«412266_j28767690948708_1_alg».proof.Proof.RefRead

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.ReferenceIdeal.ReadP (val_main_v3 val_main_v6 val_main_v12 val_main_v14 val_main_v15 val_main_v30 val_main_cst_3)

variable {F : FTy → Type} [FloatOps F]

/-! ## The three stretches, each at an arbitrary valuation -/

section Stretches
variable (W : Valuation τ sig (Elt F))

/-- Sources: the edge list's first row, then every node once. -/
theorem s0_src : StableHlo.after hostOps0 W (Proc.devRef .tc main_v3) = val_main_v3 (F := F) (W (Proc.devRef .tc main_arg1)) := by
  after_results; rfl
/-- Targets: the edge list's second row, then every node once. -/
theorem s0_dst : StableHlo.after hostOps0 W (Proc.devRef .tc main_v6) = val_main_v6 (F := F) (W (Proc.devRef .tc main_arg1)) := by
  after_results; rfl
/-- Where the degree is positive. -/
theorem s0_pos : StableHlo.after hostOps0 W (Proc.devRef .tc main_v12) = val_main_v12 (F := F) (W (Proc.devRef .tc main_arg1)) := by
  after_results; rfl
/-- The degree to the power −1/2. -/
theorem s0_pow : StableHlo.after hostOps0 W (Proc.devRef .tc main_v14) = val_main_v14 (F := F) (W (Proc.devRef .tc main_arg1)) := by
  after_results; rfl
/-- The zero that stands where the degree is not positive. -/
theorem s0_zero : StableHlo.after hostOps0 W (Proc.devRef .tc main_cst_3) = val_main_cst_3 (F := F) := by
  after_results; rfl
theorem s0_keep_arg0 : StableHlo.after hostOps0 W (Proc.devRef .tc main_arg0) = W (Proc.devRef .tc main_arg0) := by after_results
theorem s0_keep_arg2 : StableHlo.after hostOps0 W (Proc.devRef .tc main_arg2) = W (Proc.devRef .tc main_arg2) := by after_results
theorem s0_keep_arg3 : StableHlo.after hostOps0 W (Proc.devRef .tc main_arg3) = W (Proc.devRef .tc main_arg3) := by after_results
theorem s0_keep_arg4 : StableHlo.after hostOps0 W (Proc.devRef .tc main_arg4) = W (Proc.devRef .tc main_arg4) := by after_results
theorem s0_keep_arg5 : StableHlo.after hostOps0 W (Proc.devRef .tc main_arg5) = W (Proc.devRef .tc main_arg5) := by after_results
theorem s0_keep_arg6 : StableHlo.after hostOps0 W (Proc.devRef .tc main_arg6) = W (Proc.devRef .tc main_arg6) := by after_results

/-- The inverse square root of the degree, zero where the degree is not positive. -/
theorem s1_inv (x1 : (⟨Cert.ReferenceIdeal.S2x800000, .i32⟩ : BufTy).Contents (Elt F))
    (h12 : W (Proc.devRef .tc main_v12) = val_main_v12 (F := F) x1) (h14 : W (Proc.devRef .tc main_v14) = val_main_v14 (F := F) x1)
    (hc : W (Proc.devRef .tc main_cst_3) = val_main_cst_3 (F := F)) :
    StableHlo.after hostOps0_1 W (Proc.devRef .tc main_v15) = val_main_v15 (F := F) x1 := by
  after_results
  rw [h12, h14, hc]; rfl
theorem s1_keep_v3 : StableHlo.after hostOps0_1 W (Proc.devRef .tc main_v3) = W (Proc.devRef .tc main_v3) := by after_results
theorem s1_keep_v6 : StableHlo.after hostOps0_1 W (Proc.devRef .tc main_v6) = W (Proc.devRef .tc main_v6) := by after_results
theorem s1_keep_arg0 : StableHlo.after hostOps0_1 W (Proc.devRef .tc main_arg0) = W (Proc.devRef .tc main_arg0) := by after_results
theorem s1_keep_arg2 : StableHlo.after hostOps0_1 W (Proc.devRef .tc main_arg2) = W (Proc.devRef .tc main_arg2) := by after_results
theorem s1_keep_arg3 : StableHlo.after hostOps0_1 W (Proc.devRef .tc main_arg3) = W (Proc.devRef .tc main_arg3) := by after_results
theorem s1_keep_arg4 : StableHlo.after hostOps0_1 W (Proc.devRef .tc main_arg4) = W (Proc.devRef .tc main_arg4) := by after_results
theorem s1_keep_arg5 : StableHlo.after hostOps0_1 W (Proc.devRef .tc main_arg5) = W (Proc.devRef .tc main_arg5) := by after_results
theorem s1_keep_arg6 : StableHlo.after hostOps0_1 W (Proc.devRef .tc main_arg6) = W (Proc.devRef .tc main_arg6) := by after_results

set_option maxHeartbeats 1000000 in
/-- The per-edge weight: the inverse square roots at the edge's two ends, multiplied. -/
theorem s2_norm (x1 : (⟨Cert.ReferenceIdeal.S2x800000, .i32⟩ : BufTy).Contents (Elt F))
    (h3 : W (Proc.devRef .tc main_v3) = val_main_v3 (F := F) x1) (h6 : W (Proc.devRef .tc main_v6) = val_main_v6 (F := F) x1)
    (h15 : W (Proc.devRef .tc main_v15) = val_main_v15 (F := F) x1) :
    StableHlo.after hostOps0_2 W (Proc.devRef .tc main_v30) = val_main_v30 (F := F) x1 := by
  after_results_simp
  rw [h3, h6, h15]; rfl
/-- The table in the narrower format. -/
theorem s2_tab : StableHlo.after hostOps0_2 W (Proc.devRef .tc main_v31)
    = truncf .bf16 (W (Proc.devRef .tc main_arg2) : (⟨S4096x128, .f32⟩ : BufTy).Contents (Elt F)) bitsLt_bf16_f32 := by
  after_results
theorem s2_keep_v3 : StableHlo.after hostOps0_2 W (Proc.devRef .tc main_v3) = W (Proc.devRef .tc main_v3) := by after_results
theorem s2_keep_v6 : StableHlo.after hostOps0_2 W (Proc.devRef .tc main_v6) = W (Proc.devRef .tc main_v6) := by after_results
theorem s2_keep_arg0 : StableHlo.after hostOps0_2 W (Proc.devRef .tc main_arg0) = W (Proc.devRef .tc main_arg0) := by after_results
theorem s2_keep_arg3 : StableHlo.after hostOps0_2 W (Proc.devRef .tc main_arg3) = W (Proc.devRef .tc main_arg3) := by after_results
theorem s2_keep_arg4 : StableHlo.after hostOps0_2 W (Proc.devRef .tc main_arg4) = W (Proc.devRef .tc main_arg4) := by after_results
theorem s2_keep_arg5 : StableHlo.after hostOps0_2 W (Proc.devRef .tc main_arg5) = W (Proc.devRef .tc main_arg5) := by after_results
theorem s2_keep_arg6 : StableHlo.after hostOps0_2 W (Proc.devRef .tc main_arg6) = W (Proc.devRef .tc main_arg6) := by after_results

end Stretches

/-! ## What the first region finds -/

variable (m : (ℓ : Loc nD τ sig) → Buf (Elt F) ℓ) (ρ : Dev nD → PrngReg)

theorem entry_src (c : Dev nD) : W3 m ρ c (Proc.devRef .tc main_v3) = val_main_v3 (F := F) (m ((c : Thread nD τ).loc main_arg1)) :=
  (s2_keep_v3 (W2 m ρ c)).trans ((s1_keep_v3 (W1 m ρ c)).trans (s0_src (W0 m ρ c)))
theorem entry_dst (c : Dev nD) : W3 m ρ c (Proc.devRef .tc main_v6) = val_main_v6 (F := F) (m ((c : Thread nD τ).loc main_arg1)) :=
  (s2_keep_v6 (W2 m ρ c)).trans ((s1_keep_v6 (W1 m ρ c)).trans (s0_dst (W0 m ρ c)))
theorem entry_norm (c : Dev nD) : W3 m ρ c (Proc.devRef .tc main_v30) = val_main_v30 (F := F) (m ((c : Thread nD τ).loc main_arg1)) :=
  s2_norm (W2 m ρ c) _ ((s1_keep_v3 (W1 m ρ c)).trans (s0_src (W0 m ρ c))) ((s1_keep_v6 (W1 m ρ c)).trans (s0_dst (W0 m ρ c)))
    (s1_inv (W1 m ρ c) _ (s0_pos (W0 m ρ c)) (s0_pow (W0 m ρ c)) (s0_zero (W0 m ρ c)))
theorem entry_tab (c : Dev nD) : W3 m ρ c (Proc.devRef .tc main_v31)
    = truncf .bf16 (m ((c : Thread nD τ).loc main_arg2) : (⟨S4096x128, .f32⟩ : BufTy).Contents (Elt F)) bitsLt_bf16_f32 :=
  (s2_tab (W2 m ρ c)).trans (congrArg (fun x => truncf .bf16 x bitsLt_bf16_f32) ((s1_keep_arg2 (W1 m ρ c)).trans (s0_keep_arg2 (W0 m ρ c))))
theorem entry_arg0 (c : Dev nD) : W3 m ρ c (Proc.devRef .tc main_arg0) = m ((c : Thread nD τ).loc main_arg0) :=
  (s2_keep_arg0 (W2 m ρ c)).trans ((s1_keep_arg0 (W1 m ρ c)).trans (s0_keep_arg0 (W0 m ρ c)))
theorem entry_arg3 (c : Dev nD) : W3 m ρ c (Proc.devRef .tc main_arg3) = m ((c : Thread nD τ).loc main_arg3) :=
  (s2_keep_arg3 (W2 m ρ c)).trans ((s1_keep_arg3 (W1 m ρ c)).trans (s0_keep_arg3 (W0 m ρ c)))
theorem entry_arg4 (c : Dev nD) : W3 m ρ c (Proc.devRef .tc main_arg4) = m ((c : Thread nD τ).loc main_arg4) :=
  (s2_keep_arg4 (W2 m ρ c)).trans ((s1_keep_arg4 (W1 m ρ c)).trans (s0_keep_arg4 (W0 m ρ c)))
theorem entry_arg5 (c : Dev nD) : W3 m ρ c (Proc.devRef .tc main_arg5) = m ((c : Thread nD τ).loc main_arg5) :=
  (s2_keep_arg5 (W2 m ρ c)).trans ((s1_keep_arg5 (W1 m ρ c)).trans (s0_keep_arg5 (W0 m ρ c)))
theorem entry_arg6 (c : Dev nD) : W3 m ρ c (Proc.devRef .tc main_arg6) = m ((c : Thread nD τ).loc main_arg6) :=
  (s2_keep_arg6 (W2 m ρ c)).trans ((s1_keep_arg6 (W1 m ρ c)).trans (s0_keep_arg6 (W0 m ρ c)))

end Cert.KernelIdeal.HostChain

end
-- ==== Proof.HostChainB.lean ====
/-
  The host operations between the regions, read back. After each dense product the features are aggregated over
  the graph: every edge (and every node's self loop) carries its source's row, scaled by the edge's weight, to its
  target, where the rows are added up. Both programs do this with the same operations on the same edge list, so the
  aggregation is carried as ONE function of the edge list and the features and is never opened. The bias is laid out
  as one row before each bias region.
-/
import proofs.«412266_j28767690948708_1_alg».proof.Proof.HostChainA

set_option maxRecDepth 16384

noncomputable section

namespace Cert.KernelIdeal.HostChain

open Cert.KernelIdeal Cert.KernelIdeal.Gen Idealize.ShloMosaic Idealize.ShloMosaic.TcCoe Idealize.SL.Sem Idealize.ShloMosaic.StableHlo
open Cert.ReferenceIdeal.ReadP (val_main_v3 val_main_v6 val_main_v30 val_main_v39 val_main_v46 val_main_v48 val_main_v50 val_main_v51 val_main_v52
  val_main_v57 val_main_v64 val_main_v66 val_main_v68 val_main_v69 val_main_v70)

variable {F : FTy → Type} [FloatOps F]

/-! ## The aggregation as one function -/

/-- The first layer's aggregation of features `h` (256 wide) over the graph of edge list `x1`. -/
def aggr1 (x1 : (⟨Cert.ReferenceIdeal.S2x800000, .i32⟩ : BufTy).Contents (Elt F)) (h : (⟨Cert.ReferenceIdeal.S50000x256, .f32⟩ : BufTy).Contents (Elt F)) : (⟨Cert.ReferenceIdeal.S50000x256, .f32⟩ : BufTy).Contents (Elt F) :=
  Host.scatterAdd Cert.ReferenceIdeal.scatter_S50000x256_S850000x1_S850000x256_1_0_0_1 (val_main_v50 (F := F)) (val_main_v51 (F := F) x1)
    (mulf (val_main_v48 (F := F) x1) (Host.gather Cert.ReferenceIdeal.gather_S50000x256_S850000x1_S850000x256_1_0_n_n_0_1_1256 h (val_main_v46 (F := F) x1)))

/-- The reference's first aggregate is that function of its first product. -/
theorem aggr1_ref (x0 : (⟨Cert.ReferenceIdeal.S50000x1, .i32⟩ : BufTy).Contents (Elt F)) (x1 : (⟨Cert.ReferenceIdeal.S2x800000, .i32⟩ : BufTy).Contents (Elt F)) (x2 : (⟨Cert.ReferenceIdeal.S4096x128, .f32⟩ : BufTy).Contents (Elt F)) (x3 : (⟨Cert.ReferenceIdeal.S128x256, .f32⟩ : BufTy).Contents (Elt F)) :
    val_main_v52 (F := F) x0 x1 x2 x3 = aggr1 x1 (val_main_v39 (F := F) x0 x2 x3) := rfl

/-- The second layer's aggregation of features `h` (128 wide) over the graph of edge list `x1`. -/
def aggr2 (x1 : (⟨Cert.ReferenceIdeal.S2x800000, .i32⟩ : BufTy).Contents (Elt F)) (h : (⟨Cert.ReferenceIdeal.S50000x128, .f32⟩ : BufTy).Contents (Elt F)) : (⟨Cert.ReferenceIdeal.S50000x128, .f32⟩ : BufTy).Contents (Elt F) :=
  Host.scatterAdd Cert.ReferenceIdeal.scatter_S50000x128_S850000x1_S850000x128_1_0_0_1 (val_main_v68 (F := F)) (val_main_v69 (F := F) x1)
    (mulf (val_main_v66 (F := F) x1) (Host.gather Cert.ReferenceIdeal.gather_S50000x128_S850000x1_S850000x128_1_0_n_n_0_1_1128 h (val_main_v64 (F := F) x1)))

/-- The reference's second aggregate is that function of its second product. -/
theorem aggr2_ref (x0 : (⟨Cert.ReferenceIdeal.S50000x1, .i32⟩ : BufTy).Contents (Elt F)) (x1 : (⟨Cert.ReferenceIdeal.S2x800000, .i32⟩ : BufTy).Contents (Elt F)) (x2 : (⟨Cert.ReferenceIdeal.S4096x128, .f32⟩ : BufTy).Contents (Elt F)) (x3 : (⟨Cert.ReferenceIdeal.S128x256, .f32⟩ : BufTy).Contents (Elt F))
    (x4 : (⟨Cert.ReferenceIdeal.S256, .f32⟩ : BufTy).Contents (Elt F)) (x5 : (⟨Cert.ReferenceIdeal.S256x128, .f32⟩ : BufTy).Contents (Elt F)) :
    val_main_v70 (F := F) x0 x1 x2 x3 x4 x5 = aggr2 x1 (val_main_v57 (F := F) x0 x1 x2 x3 x4 x5) := rfl

/-! ## The two stretches, each at an arbitrary valuation -/

section Stretches
variable (W : Valuation τ sig (Elt F))

set_option maxHeartbeats 1000000 in
/-- The stretch after the first product aggregates it. -/
theorem s3_agg (x1 : (⟨Cert.ReferenceIdeal.S2x800000, .i32⟩ : BufTy).Contents (Elt F))
    (h3 : W (Proc.devRef .tc main_v3) = val_main_v3 (F := F) x1) (h6 : W (Proc.devRef .tc main_v6) = val_main_v6 (F := F) x1)
    (h30 : W (Proc.devRef .tc main_v30) = val_main_v30 (F := F) x1) :
    StableHlo.after hostOps2 W (Proc.devRef .tc main_v46) = aggr1 x1 (W (Proc.devRef .tc main_v33)) := by
  after_results_simp
  rw [h3, h6, h30]; rfl
/-- … and lays the first bias out as one row. -/
theorem s3_bias : StableHlo.after hostOps2 W (Proc.devRef .tc main_v47)
    = shapeCast S1x256 (W (Proc.devRef .tc main_arg4) : (⟨S256, .f32⟩ : BufTy).Contents (Elt F)) shapeCasts_S256_S1x256 := by
  after_results; rfl
theorem s3_keep_v3 : StableHlo.after hostOps2 W (Proc.devRef .tc main_v3) = W (Proc.devRef .tc main_v3) := by after_results
theorem s3_keep_v6 : StableHlo.after hostOps2 W (Proc.devRef .tc main_v6) = W (Proc.devRef .tc main_v6) := by after_results
theorem s3_keep_v30 : StableHlo.after hostOps2 W (Proc.devRef .tc main_v30) = W (Proc.devRef .tc main_v30) := by after_results
theorem s3_keep_arg5 : StableHlo.after hostOps2 W (Proc.devRef .tc main_arg5) = W (Proc.devRef .tc main_arg5) := by after_results
theorem s3_keep_arg6 : StableHlo.after hostOps2 W (Proc.devRef .tc main_arg6) = W (Proc.devRef .tc main_arg6) := by after_results

set_option maxHeartbeats 1000000 in
/-- The stretch after the second product aggregates it. -/
theorem s4_agg (x1 : (⟨Cert.ReferenceIdeal.S2x800000, .i32⟩ : BufTy).Contents (Elt F))
    (h3 : W (Proc.devRef .tc main_v3) = val_main_v3 (F := F) x1) (h6 : W (Proc.devRef .tc main_v6) = val_main_v6 (F := F) x1)
    (h30 : W (Proc.devRef .tc main_v30) = val_main_v30 (F := F) x1) :
    StableHlo.after hostOps4 W (Proc.devRef .tc main_v62) = aggr2 x1 (W (Proc.devRef .tc main_v49)) := by
  after_results_simp
  rw [h3, h6, h30]; rfl
/-- … and lays the second bias out as one row. -/
theorem s4_bias : StableHlo.after hostOps4 W (Proc.devRef .tc main_v63)
    = shapeCast S1x128 (W (Proc.devRef .tc main_arg6) : (⟨S128, .f32⟩ : BufTy).Contents (Elt F)) shapeCasts_S128_S1x128 := by
  after_results; rfl

end Stretches

/-! ## What each later region finds -/

variable (m : (ℓ : Loc nD τ sig) → Buf (Elt F) ℓ) (ρ : Dev nD → PrngReg)

-- a region leaves every buffer that is not one of its three arrays as it found it
theorem mid_src (c : Dev nD) : W5 m ρ c (Proc.devRef .tc main_v3) = val_main_v3 (F := F) (m ((c : Thread nD τ).loc main_arg1)) :=
  (W5_of_ne m ρ c main_v3 (by decide)).trans ((W4_of_ne m ρ c main_v3 (by decide)).trans (entry_src m ρ c))
theorem mid_dst (c : Dev nD) : W5 m ρ c (Proc.devRef .tc main_v6) = val_main_v6 (F := F) (m ((c : Thread nD τ).loc main_arg1)) :=
  (W5_of_ne m ρ c main_v6 (by decide)).trans ((W4_of_ne m ρ c main_v6 (by decide)).trans (entry_dst m ρ c))
theorem mid_norm (c : Dev nD) : W5 m ρ c (Proc.devRef .tc main_v30) = val_main_v30 (F := F) (m ((c : Thread nD τ).loc main_arg1)) :=
  (W5_of_ne m ρ c main_v30 (by decide)).trans ((W4_of_ne m ρ c main_v30 (by decide)).trans (entry_norm m ρ c))
/-- The first weight matrix, as the first dense region finds it. -/
theorem mid_arg3 (c : Dev nD) : W4 m ρ c (Proc.devRef .tc main_arg3) = m ((c : Thread nD τ).loc main_arg3) :=
  (W4_of_ne m ρ c main_arg3 (by decide)).trans (entry_arg3 m ρ c)
theorem mid_arg4 (c : Dev nD) : W5 m ρ c (Proc.devRef .tc main_arg4) = m ((c : Thread nD τ).loc main_arg4) :=
  (W5_of_ne m ρ c main_arg4 (by decide)).trans ((W4_of_ne m ρ c main_arg4 (by decide)).trans (entry_arg4 m ρ c))
theorem mid_arg5 (c : Dev nD) : W5 m ρ c (Proc.devRef .tc main_arg5) = m ((c : Thread nD τ).loc main_arg5) :=
  (W5_of_ne m ρ c main_arg5 (by decide)).trans ((W4_of_ne m ρ c main_arg5 (by decide)).trans (entry_arg5 m ρ c))
theorem mid_arg6 (c : Dev nD) : W5 m ρ c (Proc.devRef .tc main_arg6) = m ((c : Thread nD τ).loc main_arg6) :=
  (W5_of_ne m ρ c main_arg6 (by decide)).trans ((W4_of_ne m ρ c main_arg6 (by decide)).trans (entry_arg6 m ρ c))

/-- The bias region of the first layer finds the first product aggregated … -/
theorem found_aggr1 (c : Dev nD) : W6 m ρ c (Proc.devRef .tc main_v46) = aggr1 (m ((c : Thread nD τ).loc main_arg1)) (W5 m ρ c (Proc.devRef .tc main_v33)) :=
  s3_agg (W5 m ρ c) _ (mid_src m ρ c) (mid_dst m ρ c) (mid_norm m ρ c)
/-- … and the first bias as one row. -/
theorem found_bias1 (c : Dev nD) : W6 m ρ c (Proc.devRef .tc main_v47)
    = shapeCast S1x256 (m ((c : Thread nD τ).loc main_arg4) : (⟨S256, .f32⟩ : BufTy).Contents (Elt F)) shapeCasts_S256_S1x256 :=
  (s3_bias (W5 m ρ c)).trans (congrArg (fun x => shapeCast S1x256 x shapeCasts_S256_S1x256) (mid_arg4 m ρ c))

theorem late_src (c : Dev nD) : W8 m ρ c (Proc.devRef .tc main_v3) = val_main_v3 (F := F) (m ((c : Thread nD τ).loc main_arg1)) :=
  (W8_of_ne m ρ c main_v3 (by decide)).trans ((W7_of_ne m ρ c main_v3 (by decide)).trans ((s3_keep_v3 (W5 m ρ c)).trans (mid_src m ρ c)))
theorem late_dst (c : Dev nD) : W8 m ρ c (Proc.devRef .tc main_v6) = val_main_v6 (F := F) (m ((c : Thread nD τ).loc main_arg1)) :=
  (W8_of_ne m ρ c main_v6 (by decide)).trans ((W7_of_ne m ρ c main_v6 (by decide)).trans ((s3_keep_v6 (W5 m ρ c)).trans (mid_dst m ρ c)))
theorem late_norm (c : Dev nD) : W8 m ρ c (Proc.devRef .tc main_v30) = val_main_v30 (F := F) (m ((c : Thread nD τ).loc main_arg1)) :=
  (W8_of_ne m ρ c main_v30 (by decide)).trans ((W7_of_ne m ρ c main_v30 (by decide)).trans ((s3_keep_v30 (W5 m ρ c)).trans (mid_norm m ρ c)))
/-- The second weight matrix, as the second dense region finds it. -/
theorem late_arg5 (c : Dev nD) : W7 m ρ c (Proc.devRef .tc main_arg5) = m ((c : Thread nD τ).loc main_arg5) :=
  (W7_of_ne m ρ c main_arg5 (by decide)).trans ((s3_keep_arg5 (W5 m ρ c)).trans (mid_arg5 m ρ c))
theorem late_arg6 (c : Dev nD) : W8 m ρ c (Proc.devRef .tc main_arg6) = m ((c : Thread nD τ).loc main_arg6) :=
  (W8_of_ne m ρ c main_arg6 (by decide)).trans ((W7_of_ne m ρ c main_arg6 (by decide)).trans ((s3_keep_arg6 (W5 m ρ c)).trans (mid_arg6 m ρ c)))

/-- The last region finds the second product aggregated … -/
theorem found_aggr2 (c : Dev nD) : W9 m ρ c (Proc.devRef .tc main_v62) = aggr2 (m ((c : Thread nD τ).loc main_arg1)) (W8 m ρ c (Proc.devRef .tc main_v49)) :=
  s4_agg (W8 m ρ c) _ (late_src m ρ c) (late_dst m ρ c) (late_norm m ρ c)
/-- … and the second bias as one row. -/
theorem found_bias2 (c : Dev nD) : W9 m ρ c (Proc.devRef .tc main_v63)
    = shapeCast S1x128 (m ((c : Thread nD τ).loc main_arg6) : (⟨S128, .f32⟩ : BufTy).Contents (Elt F)) shapeCasts_S128_S1x128 :=
  (s4_bias (W8 m ρ c)).trans (congrArg (fun x => shapeCast S1x128 x shapeCasts_S128_S1x128) (late_arg6 m ρ c))

end Cert.KernelIdeal.HostChain

end
-- ==== Proof.Region0.lean ====
/-
  Region 0, the embedding lookup as a one-hot product: row p of the output is the row of the table that the
  p-th id names, when that id is a row number of the table.
-/
import proofs.«412266_j28767690948708_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx (ix2)

-- the TensorCore's buffer contents when the region is entered: a parameter
variable (V : (c : Dev nD) → (b : Ref sig .tc) → Buf (Elt Ideal) ((c : Thread nD τ).loc b))

/-- The ids, one per node, as the region finds them. -/
abbrev ids0 (c : Dev nD) : Vec Ideal S50000x1 .i32 := V c (Pipeline.arrRef spec0 0)
/-- The table (4096 rows of 128), as the region finds it. -/
abbrev tab0 (c : Dev nD) : Vec Ideal S4096x128 .bf16 := V c (Pipeline.arrRef spec0 1)
/-- The region's output array after its last write-back. -/
abbrev res0 (c : Dev nD) : Vec Ideal S50000x128 .f32 := (dat0 (F := Ideal) V c).arrAt 2 cfg0.N

namespace Lookup

/-! ## A one-hot row times a column -/

/-- A row that is 1 at column `r` and 0 elsewhere picks entry `r` of any column of extended reals: every other
    term is `0 * x = 0`, whatever `x` is. -/
theorem sum_onehot_mul (r : Fin 4096) (f : Fin 4096 → EReal) :
    ∑ v : Fin 4096, (if v = r then (1 : EReal) else 0) * f v = f r := by
  rw [Finset.sum_eq_single r]
  · rw [if_pos rfl, one_mul]
  · intro v _ hv
    rw [if_neg hv, zero_mul]
  · intro h
    exact absurd (Finset.mem_univ r) h

/-! ## The words -/

/-- A 32-bit word whose signed value is the natural number `n` is the word of `n`. -/
theorem word_of_toInt (w : BitVec 32) (n : Nat) (h : w.toInt = (n : Int)) : w = BitVec.ofNat 32 n := by
  rw [← BitVec.ofInt_toInt (x := w), h, BitVec.ofInt_natCast]

/-- Two row numbers of the table with the same 32-bit word are the same row. -/
theorem row_of_word_eq (a b : Fin 4096) (h : BitVec.ofNat 32 a.val = BitVec.ofNat 32 b.val) : a = b := by
  have e := congrArg BitVec.toNat h
  rw [BitVec.toNat_ofNat, BitVec.toNat_ofNat] at e
  have ha := a.isLt
  have hb := b.isLt
  exact Fin.ext (by omega)

/-- Entry `k` of the one-hot row made from an id's word `w`: the compare of `w` with the word of `k`, widened to 32
    bits, read as a signed integer and then as an extended real. -/
def hot (w : BitVec 32) (k : Fin 4096) : EReal :=
  ((((IntOp.cmpi .eq w (BitVec.ofNat 32 k.val)).setWidth 32).toInt : ℝ) : EReal)

/-- It is 1 when `k` is the row the id names and 0 otherwise. -/
theorem onehot_entry (w : BitVec 32) (r k : Fin 4096) (h : w.toInt = (r.val : Int)) :
    hot w k = if k = r then 1 else 0 := by
  unfold hot
  have hw := word_of_toInt w r.val h
  subst hw
  by_cases hk : k = r
  · subst hk
    rw [if_pos rfl]
    have e : IntOp.cmpi .eq (BitVec.ofNat 32 k.val) (BitVec.ofNat 32 k.val) = 1#1 := by
      simp [IntOp.cmpi]
    rw [e]
    have e1 : ((1#1 : BitVec 1).setWidth 32).toInt = 1 := by decide
    rw [e1]
    simp
  · rw [if_neg hk]
    have e : IntOp.cmpi .eq (BitVec.ofNat 32 r.val) (BitVec.ofNat 32 k.val) = 0#1 := by
      have hne : ¬ (BitVec.ofNat 32 r.val = BitVec.ofNat 32 k.val) := fun he => hk (row_of_word_eq r k he).symm
      have hb : (BitVec.ofNat 32 r.val == BitVec.ofNat 32 k.val) = false := beq_eq_false_iff_ne.2 hne
      simp [IntOp.cmpi, hb]
    rw [e]
    have e0 : ((0#1 : BitVec 1).setWidth 32).toInt = 0 := by decide
    rw [e0]
    simp

/-! ## The body's product at an index -/

/-- The one-hot operand's row coordinate at output index `i` is `i`'s row. -/
theorem onehot_row (i : S1000x128.Idx) (q : dot_S1000x4096_S4096x128_S1000x128_1_0_0_1_n_n.contr.Idx) :
    (dot_S1000x4096_S4096x128_S1000x128_1_0_0_1_n_n.lhsIdx i q 0).val = (i 0).val := by
  unfold DotDims.lhsIdx
  rw [dif_neg (show ¬(0 : Fin S1000x4096.rank) ∈ dot_S1000x4096_S4096x128_S1000x128_1_0_0_1_n_n.lhsBatch by decide), dif_pos (show (0 : Fin S1000x4096.rank) ∈ dot_S1000x4096_S4096x128_S1000x128_1_0_0_1_n_n.lhsNonContracting by decide)]
  rfl
/-- Its column coordinate is the summation index. -/
theorem onehot_col (i : S1000x128.Idx) (q : dot_S1000x4096_S4096x128_S1000x128_1_0_0_1_n_n.contr.Idx) :
    (dot_S1000x4096_S4096x128_S1000x128_1_0_0_1_n_n.lhsIdx i q 1).val = (q ⟨0, by decide⟩).val :=
  dot_S1000x4096_S4096x128_S1000x128_1_0_0_1_n_n.lhsIdx_val_of_single rfl i q
/-- The table operand's row coordinate is the summation index. -/
theorem table_row (i : S1000x128.Idx) (q : dot_S1000x4096_S4096x128_S1000x128_1_0_0_1_n_n.contr.Idx) :
    (dot_S1000x4096_S4096x128_S1000x128_1_0_0_1_n_n.rhsIdx i q 0).val = (q ⟨0, by decide⟩).val :=
  dot_S1000x4096_S4096x128_S1000x128_1_0_0_1_n_n.rhsIdx_val_of_single rfl i q
/-- Its column coordinate is `i`'s column. -/
theorem table_col (i : S1000x128.Idx) (q : dot_S1000x4096_S4096x128_S1000x128_1_0_0_1_n_n.contr.Idx) :
    (dot_S1000x4096_S4096x128_S1000x128_1_0_0_1_n_n.rhsIdx i q 1).val = (i 1).val := by
  unfold DotDims.rhsIdx
  rw [dif_neg (show ¬(1 : Fin S4096x128.rank) ∈ dot_S1000x4096_S4096x128_S1000x128_1_0_0_1_n_n.rhsBatch by decide), dif_pos (show (1 : Fin S4096x128.rank) ∈ dot_S1000x4096_S4096x128_S1000x128_1_0_0_1_n_n.rhsNonContracting by decide)]
  rfl

/-- Entry (p, k) of the one-hot operand: the id of row `p` compared with the word of `k`. -/
theorem onehot_apply (v0 : Vec Ideal S1000x1 .i32) (p : Fin 1000) (k : Fin 4096) :
    (truncf (F := Ideal) .bf16 (sitofp .f32 (extui 32 (cmpi .eq (broadcastTo S1000x4096 v0 broadcasts_S1000x1_S1000x4096)
        (iota .tc S1000x4096 32 [1] iota_S1000x4096_d1_w32)) natLt_1_32)) bitsLt_bf16_f32 (ix2 p k) : EReal)
      = hot (v0 (ix2 p (0 : Fin 1))) k := by
  show ((((IntOp.cmpi .eq (broadcastTo S1000x4096 v0 broadcasts_S1000x1_S1000x4096 (ix2 p k))
      (iota .tc S1000x4096 32 [1] iota_S1000x4096_d1_w32 (ix2 p k))).setWidth 32).toInt : ℝ) : EReal) = _
  rw [iota_single_apply, broadcastTo_apply v0 broadcasts_S1000x1_S1000x4096 (ix2 p k) (ix2 p (0 : Fin 1)) (fun a => by
    match a with
    | ⟨0, _⟩ => show p.val = if (1000 : Nat) = 1 then 0 else p.val; rw [if_neg (by decide)]
    | ⟨1, _⟩ => show (0 : Nat) = if (1 : Nat) = 1 then 0 else k.val; rw [if_pos rfl])]
  rfl

/-- THE BODY'S VALUE at (p, q): the one-hot row of node `p` times column `q` of the table block. -/
theorem pay_sum (v0 : Vec Ideal S1000x1 .i32) (v7 : Vec Ideal S4096x128 .bf16) (p : Fin 1000) (q : Fin 128) :
    (k0_pay1 (F := Ideal) v0 v7 (ix2 p q) : EReal) = ∑ k : Fin 4096, hot (v0 (ix2 p (0 : Fin 1))) k * v7 (ix2 k q) := by
  unfold k0_pay1
  simp only [matmul]
  rw [Ideal.matmul_constant_zero_apply, ← Equiv.sum_comp (ValueIdx.contrEquiv1 dot_S1000x4096_S4096x128_S1000x128_1_0_0_1_n_n 4096 rfl rfl).symm]
  refine Finset.sum_congr rfl fun k _ => ?_
  have hk := ValueIdx.contrEquiv1_symm_val dot_S1000x4096_S4096x128_S1000x128_1_0_0_1_n_n 4096 rfl rfl k
  have el : dot_S1000x4096_S4096x128_S1000x128_1_0_0_1_n_n.lhsIdx (ix2 p q) ((ValueIdx.contrEquiv1 dot_S1000x4096_S4096x128_S1000x128_1_0_0_1_n_n 4096 rfl rfl).symm k) = ix2 p k := funext fun a => Fin.ext (by
    match a with
    | ⟨0, _⟩ => exact onehot_row _ _
    | ⟨1, _⟩ => exact (onehot_col _ _).trans hk)
  have er : dot_S1000x4096_S4096x128_S1000x128_1_0_0_1_n_n.rhsIdx (ix2 p q) ((ValueIdx.contrEquiv1 dot_S1000x4096_S4096x128_S1000x128_1_0_0_1_n_n 4096 rfl rfl).symm k) = ix2 k q := funext fun a => Fin.ext (by
    match a with
    | ⟨0, _⟩ => exact (table_row _ _).trans hk
    | ⟨1, _⟩ => exact table_col _ _)
  rw [el, er, shapeCast_self, onehot_apply]

/-! ## From the blocks to the array -/

/-- The whole output as ONE function of the ids and the table: row `i 0` is the one-hot row of node `i 0`'s id times
    the table. -/
def lookup (ids : Vec Ideal S50000x1 .i32) (tab : Vec Ideal S4096x128 .bf16) : Vec Ideal S50000x128 .f32 :=
  fun i => ∑ k : Fin 4096, hot (ids (ix2 (i 0) (0 : Fin 1))) k * tab (ix2 k (i 1))

/-- A block of the body's value is the block of `lookup`, when the ids' block holds node `i 0`'s id at its row `p` and
    the table's block is the table from column `i 1` at its column `q`. -/
theorem pay_eq_lookup (ids : Vec Ideal S50000x1 .i32) (tab : Vec Ideal S4096x128 .bf16)
    (x0 : Vec Ideal S1000x1 .i32) (x1 : Vec Ideal S4096x128 .bf16) (i : S50000x128.Idx) (p : Fin 1000) (q : Fin 128)
    (h0 : x0 (ix2 p (0 : Fin 1)) = ids (ix2 (i 0) (0 : Fin 1))) (h1 : ∀ k : Fin 4096, x1 (ix2 k q) = tab (ix2 k (i 1))) :
    k0_pay1 (F := Ideal) x0 x1 (ix2 p q) = lookup ids tab i := by
  refine (pay_sum x0 x1 p q).trans ?_
  unfold lookup
  rw [h0]
  exact Finset.sum_congr rfl fun k _ => by rw [h1 k]

/-- The offset of a load or store of a whole block: zero on both axes. -/
theorem origin2 : (![0, 0] : Fin 2 → Nat) = fun _ => 0 := funext fun a => by fin_cases a <;> rfl

/-- The printed index maps, decided over the grid: the ids' block moves down with the output's block, the table's block
    stays, and nothing moves sideways. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 49
    ∧ win0_2.index t (1 : Fin 2) = 0 :=
  (by decide +kernel : ∀ t : Fin grid0.N, _)

/-- Every block of rows of the output is SOME point's. -/
theorem every_rowblock : ∀ b : Fin 50, ∃ t : Fin cfg0.N, win0_2.index t = ![b.val, 0] :=
  (by decide +kernel : ∀ b : Fin 50, ∃ t : Fin grid0.N, win0_2.index t = ![b.val, 0])

/-- WHAT POINT `t` WRITES BACK is block `t` of `lookup` of the ids and the table as the region finds them. -/
theorem flushed_eq_lookup (c : Dev nD) (t : Fin cfg0.N) :
    (dat0 (F := Ideal) V c).flushed 2 t = ((cfg0.win 2).blk t).view.read (Elt Ideal) (lookup (ids0 V c) (tab0 V c)) := by
  show (cfg0.win 2).cut (grid0.coords t) ((dat0 (F := Ideal) V c).after 2 t) = _
  rw [after0_2]
  unfold out0_2
  rw [View.canon_unit_zero origin2]
  simp only [View.ld_unit_zero (S := S1000x1) origin2, View.ld_unit_zero (S := S4096x128) origin2]
  obtain ⟨e0, e1, e2, e3, e4, e5⟩ := index_maps t
  funext j
  obtain ⟨p, q, rfl⟩ : ∃ (p : Fin 1000) (q : Fin 128), j = ix2 p q := ⟨j 0, j 1, ValueIdx.eq_ix2 j⟩
  refine pay_eq_lookup (ids0 V c) (tab0 V c) _ _ (((cfg0.win 2).blk t).view.emb (ix2 p q)) p q ?_ ?_
  · show V c (Pipeline.arrRef spec0 0) (((cfg0.win 0).blk t).view.emb (ix2 p (0 : Fin 1))) = V c (Pipeline.arrRef spec0 0) (ix2 ((((cfg0.win 2).blk t).view.emb (ix2 p q)) 0) (0 : Fin 1))
    refine congrArg _ (funext fun a => Fin.ext ?_)
    match a with
    | ⟨0, _⟩ => show win0_0.index t (0 : Fin 2) * 1000 + 1 * p.val = win0_2.index t (0 : Fin 2) * 1000 + 1 * p.val; omega
    | ⟨1, _⟩ => show win0_0.index t (1 : Fin 2) * 1 + 1 * 0 = 0; omega
  · intro k
    show V c (Pipeline.arrRef spec0 1) (((cfg0.win 1).blk t).view.emb (ix2 k q)) = V c (Pipeline.arrRef spec0 1) (ix2 k ((((cfg0.win 2).blk t).view.emb (ix2 p q)) 1))
    refine congrArg _ (funext fun a => Fin.ext ?_)
    match a with
    | ⟨0, _⟩ => show win0_1.index t (0 : Fin 2) * 4096 + 1 * k.val = k.val; omega
    | ⟨1, _⟩ => show win0_1.index t (1 : Fin 2) * 128 + 1 * q.val = win0_2.index t (1 : Fin 2) * 128 + 1 * q.val; omega

/-- An index of the output is in point `t`'s block iff each coordinate is in the block's range on its axis. -/
theorem mem_block (t : Fin cfg0.N) (i : S50000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v32).slice (win0_2.rect t)).set ↔ _
  rw [View.set_slice_whole, Rect.mem_set_unit]
  exact Iff.rfl

/-- EVERY index of the output is in some point's block: row `n` is in the block of rows number `n / 1000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := every_rowblock ⟨(i 0).val / 1000, by omega⟩
  have q0 : win0_2.index t (0 : Fin 2) = (i 0).val / 1000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 1000 ≤ (i 0).val ∧ (i 0).val < win0_2.index t (0 : Fin 2) * 1000 + 1000; omega
  | ⟨1, _⟩ => show win0_2.index t (1 : Fin 2) * 128 ≤ (i 1).val ∧ (i 1).val < win0_2.index t (1 : Fin 2) * 128 + 128; omega

/-- THE ARRAY after the region's last write-back is `lookup` of the ids and the table. -/
theorem res0_eq_lookup (c : Dev nD) : res0 V c = lookup (ids0 V c) (tab0 V c) :=
  (dat0 (F := Ideal) V c).arrAt_eq_of_cover 2 (lookup (ids0 V c) (tab0 V c)) (fun t _ => flushed_eq_lookup V c t) covered

end Lookup

/-- Row `p` of the output is row `r` of the table, when node `p`'s id is the row number `r`. -/
theorem region0_value (c : Dev nD) (p : Fin 50000) (q : Fin 128) (r : Fin 4096)
    (hr : (ids0 V c (ix2 p (0 : Fin 1))).toInt = (r.val : Int)) :
    (res0 V c (ix2 p q) : EReal) = tab0 V c (ix2 r q) := by
  rw [Lookup.res0_eq_lookup]
  show ∑ k : Fin 4096, Lookup.hot (ids0 V c (ix2 p (0 : Fin 1))) k * tab0 V c (ix2 k q) = _
  rw [← Lookup.sum_onehot_mul r (fun k => tab0 V c (ix2 k q))]
  exact Finset.sum_congr rfl fun k _ => by rw [Lookup.onehot_entry _ r k hr]

end Cert.KernelIdeal.RegionValue

end
-- ==== Proof.RefEmbed.lean ====
/-
  The reference's embedding lookup read at an index: when node p's id is the row number r of the table, the
  looked-up row p is the table's row r (a negative id would first be shifted by the table's height and any id is
  then clamped into the table; an id already in range is left as it is by both).
-/
import proofs.«412266_j28767690948708_1_alg».proof.Proof.RefRead
import Idealize.ShloMosaic.Lib.ValueIdx
import Idealize.ShloMosaic.Lib.StableHlo.Predicate

noncomputable section

namespace Cert.ReferenceIdeal.RefValue

open Cert.ReferenceIdeal Cert.ReferenceIdeal.Gen Cert.ReferenceIdeal.ReadP Idealize.ShloMosaic
open Idealize.ShloMosaic.ValueIdx (ix2)

/-! ## A row lookup read at an index

The lookup of whole rows of an `[N × C]` table at an `[R × 1]` column of start indices: the table's first axis is
indexed and collapsed, its second axis is carried whole as the result's second axis. Result element `(p, q)` is the
table's element `(s, q)`, where `s` is start index `p` read as a signed integer and clamped into `[0, N − 1]`. -/

/-- The dimension numbers of that lookup; their conditions `wf` are decided on literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row lookup at `(p, q)`: the table at (start index `p`, signed and clamped into `[0, N − 1]`; column `q`). -/
theorem gather_row_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (p : Fin R) (q : Fin C) :
    Host.gather (rowDims N C R wf) x idx (ix2 p q)
      = x (ix2 ⟨min (idx (ix2 p (0 : Fin 1))).toInt.toNat (N - 1), by omega⟩ q) := by
  unfold Host.gather
  congr 1
  funext a
  refine Fin.ext ?_
  match a with
  | ⟨0, _⟩ =>
    -- the indexed axis: no batching part, no offset part (the axis is collapsed), the clamped start index remains
    show (rowDims N C R wf).start (ix2 p q) idx 0 + (rowDims N C R wf).batchCoord (ix2 p q) 0
      + (rowDims N C R wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 p q) ⟨List.idxOf (0 : Fin 2) (rowDims N C R wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the carried axis: it is not start-indexed and not batching, so only the result's column coordinate remains
    show (rowDims N C R wf).start (ix2 p q) idx 1 + (rowDims N C R wf).batchCoord (ix2 p q) 1
      + (rowDims N C R wf).offCoord (ix2 p q) 1 = q.val
    have hk : (1 : Fin 2) ∈ (rowDims N C R wf).sKept :=
      (GatherDims.mem_sKept _ _).2 ⟨show (1 : Fin 2) ∉ [(0 : Fin 2)] from by decide, List.not_mem_nil⟩
    have hs : (rowDims N C R wf).start (ix2 p q) idx 1 = 0 := by
      unfold GatherDims.start
      rw [dif_neg (show (1 : Fin 2) ∉ [(0 : Fin 2)] from by decide)]
    rw [hs, GatherDims.batchCoord_eq_zero _ _ _ List.not_mem_nil]
    unfold GatherDims.offCoord
    rw [dif_pos hk]
    simp only [Nat.zero_add]
    rfl

/-- Row `p` of the lookup is row `r` of the table, when node `p`'s id is the row number `r`. -/
theorem gathered_row {F : FTy → Type} [FloatOps F] (x0 : (⟨S50000x1, .i32⟩ : BufTy).Contents (Elt F))
    (x2 : (⟨S4096x128, .f32⟩ : BufTy).Contents (Elt F)) (p : Fin 50000) (q : Fin 128) (r : Fin 4096)
    (hr : (x0 (ix2 p (0 : Fin 1))).toInt = (r.val : Int)) :
    val_main_v38 (F := F) x0 x2 (ix2 p q) = x2 (ix2 r q) := by
  -- the lookup is the row lookup of the table at the adjusted ids
  have hg : val_main_v38 (F := F) x0 x2 (ix2 p q)
      = x2 (ix2 ⟨min (val_main_v37 (F := F) x0 (ix2 p (0 : Fin 1))).toInt.toNat (4096 - 1), by omega⟩ q) :=
    gather_row_apply (N := 4096) (C := 128) (R := 50000) (w := 32) (by decide) _ x2 (val_main_v37 (F := F) x0) p q
  rw [hg]
  -- node p's adjusted id is read at node p's place in the id column
  have hid : idx_main_v31 (idx_main_v37 (ix2 p (0 : Fin 1))) = ix2 p (0 : Fin 1) := by
    funext a; refine Fin.ext ?_
    match a with
    | ⟨0, _⟩ => exact Nat.div_one _
    | ⟨1, _⟩ => rfl
  -- the id is not negative, so the adjustment leaves it alone
  have hc : IntOp.cmpi .slt (x0 (ix2 p (0 : Fin 1))) 0#32 = 0#1 := by
    apply ValueIdx.eq_zero_of_ne_one
    intro h1
    have h2 := IntOp.cmpi_slt.1 h1
    rw [hr, show (0#32 : BitVec 32).toInt = 0 from by decide] at h2
    omega
  have hv : val_main_v37 (F := F) x0 (ix2 p (0 : Fin 1)) = x0 (ix2 p (0 : Fin 1)) := by
    rw [val_main_v37_apply, val_main_v36_apply, val_main_v33_apply, val_main_v32_apply, val_main_c_7_apply,
      val_main_v31_apply, hid, hc, ValueIdx.select_zero]
  -- and it is below the table's height, so the clamp leaves it alone too
  have hm : min (val_main_v37 (F := F) x0 (ix2 p (0 : Fin 1))).toInt.toNat (4096 - 1) = r.val := by
    rw [hv, hr, Int.toNat_natCast]
    have := r.isLt
    omega
  congr 1
  funext a; refine Fin.ext ?_
  match a with
  | ⟨0, _⟩ => exact hm
  | ⟨1, _⟩ => rfl

end Cert.ReferenceIdeal.RefValue

end
-- ==== Proof.Match0.lean ====
/-
  The embedding region's output is the reference's lookup: with every id a row number of the table, row p of
  both is the table's row id p; the table's change of format is the identity on extended reals.
-/
import proofs.«412266_j28767690948708_1_alg».proof.Proof.Region0
import proofs.«412266_j28767690948708_1_alg».proof.Proof.RefEmbed
set_option maxRecDepth 16384

noncomputable section

namespace Cert.KernelIdeal.Match

open Cert.KernelIdeal Cert.KernelIdeal.Gen Cert.KernelIdeal.RegionValue Idealize.ShloMosaic Idealize.ShloMosaic.TcCoe Idealize.SL.Sem
open Cert.ReferenceIdeal.ReadP (val_main_v38 val_main_v39 val_main_v52 val_main_v56 val_main_v57 val_main_v70 val_main_v73)
open Idealize.ShloMosaic.ValueIdx (ix1 ix2)

variable (V : (c : Dev nD) → (b : Ref sig .tc) → Buf (Elt Ideal) ((c : Thread nD τ).loc b))

theorem lookup_eq (c : Dev nD) (x0 : (⟨Cert.ReferenceIdeal.S50000x1, .i32⟩ : BufTy).Contents (Elt Ideal)) (x2 : (⟨Cert.ReferenceIdeal.S4096x128, .f32⟩ : BufTy).Contents (Elt Ideal))
    (hids : ids0 V c = x0) (htab : tab0 V c = (truncf (F := Ideal) .bf16 (x2 : FVec Ideal S4096x128 .f32) bitsLt_bf16_f32 : FVec Ideal S4096x128 .bf16))
    (hrange : ∀ i : Cert.ReferenceIdeal.S50000x1.Idx, 0 ≤ (x0 i).toInt ∧ (x0 i).toInt < 4096) :
    res0 V c = val_main_v38 (F := Ideal) x0 x2 := by
  funext i
  -- split the index into the node and the column
  obtain ⟨p, q, rfl⟩ : ∃ (p : Fin 50000) (q : Fin 128), i = ix2 p q := ⟨i 0, i 1, ValueIdx.eq_ix2 i⟩
  -- node p's id is a row number r of the table
  have hp := hrange (ix2 p (0 : Fin 1))
  have hlt : (x0 (ix2 p (0 : Fin 1))).toInt.toNat < 4096 := by omega
  have hr' : (x0 (ix2 p (0 : Fin 1))).toInt = (((⟨(x0 (ix2 p (0 : Fin 1))).toInt.toNat, hlt⟩ : Fin 4096).val : Nat) : Int) :=
    (Int.toNat_of_nonneg hp.1).symm
  have hr : (ids0 V c (ix2 p (0 : Fin 1))).toInt = (((⟨(x0 (ix2 p (0 : Fin 1))).toInt.toNat, hlt⟩ : Fin 4096).val : Nat) : Int) := by
    rw [hids]; exact hr'
  -- both sides are the table's row r: the region's by its one-hot product, the reference's by its lookup
  refine (region0_value V c p q _ hr).trans ?_
  refine Eq.trans ?_ (Cert.ReferenceIdeal.RefValue.gathered_row (F := Ideal) x0 x2 p q _ hr').symm
  -- and the table the region finds is the reference's table: the change of format keeps every extended real
  exact congrFun htab (ix2 _ q)

end Cert.KernelIdeal.Match

end
-- ==== Proof.Region1.lean ====
/-
  Region 1, the first layer's dense product: entry (p, q) of the output is the sum over k of
  lhs (p, k) · rhs (k, q), the product's two format changes being the identity on extended reals.
-/
import proofs.«412266_j28767690948708_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx (ix2)

variable (V : (c : Dev nD) → (b : Ref sig .tc) → Buf (Elt Ideal) ((c : Thread nD τ).loc b))

/-- The left factor (50000 × 128), as the region finds it. -/
abbrev lhs1 (c : Dev nD) : Vec Ideal S50000x128 .f32 := V c (Pipeline.arrRef spec1 0)
/-- The right factor (128 × 256), as the region finds it. -/
abbrev rhs1 (c : Dev nD) : Vec Ideal S128x256 .f32 := V c (Pipeline.arrRef spec1 1)
/-- The region's output array after its last write-back. -/
abbrev res1 (c : Dev nD) : Vec Ideal S50000x256 .f32 := (dat1 (F := Ideal) V c).arrAt 2 cfg1.N

/-- The block product's left operand index, along axis 0: the output's row. -/
theorem blockLhs1_row (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
/-- Along axis 1: the contraction index. -/
theorem blockLhs1_col (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
/-- The right operand index, along axis 0: the contraction index. -/
theorem blockRhs1_row (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
/-- Along axis 1: the output's column. -/
theorem blockRhs1_col (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- One block's product at entry (p, q): the sum over k of the left block at (p, k) times the right block at (k, q);
    the two narrowings to the 16-bit format and the cast to the same shape change nothing on extended reals, and the
    accumulator is the zero splat. -/
theorem blockProduct1_apply (x0 : Vec Ideal S5000x128 .f32) (x1 : Vec Ideal S128x256 .f32) (p : Fin 5000) (q : Fin 256) :
    (k1_pay1 (F := Ideal) x0 x1 (ix2 p q) : EReal) = ∑ k : Fin 128, (x0 (ix2 p k) : EReal) * x1 (ix2 k q) := by
  unfold k1_pay1
  simp only [matmul, shapeCast_self]
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q) ((ValueIdx.contrEquiv1 dot_S5000x128_S128x256_S5000x256_1_0_0_1_n_n 128 rfl rfl).symm k) = ix2 p k := funext fun a => Fin.ext (by
    match a with
    | ⟨0, _⟩ => exact blockLhs1_row _ _
    | ⟨1, _⟩ => exact (blockLhs1_col _ _).trans hk)
  have er : dot_S5000x128_S128x256_S5000x256_1_0_0_1_n_n.rhsIdx (ix2 p q) ((ValueIdx.contrEquiv1 dot_S5000x128_S128x256_S5000x256_1_0_0_1_n_n 128 rfl rfl).symm k) = ix2 k q := funext fun a => Fin.ext (by
    match a with
    | ⟨0, _⟩ => exact (blockRhs1_row _ _).trans hk
    | ⟨1, _⟩ => exact blockRhs1_col _ _)
  rw [el, er]
  rfl

/-- The offsets of a whole-block access are all zero. -/
theorem zeroOffsets1 : (![0, 0] : Fin 2 → Nat) = fun _ => 0 := funext fun a => by fin_cases a <;> rfl

/-- The dense product of the whole factors: entry (p, q) is the sum over k of left (p, k) times right (k, q). -/
def product1 (A : Vec Ideal S50000x128 .f32) (B : Vec Ideal S128x256 .f32) : Vec Ideal S50000x256 .f32 :=
  fun i => ∑ k : Fin 128, (A (ix2 (⟨(i 0).val, ValueIdx.idx2_lt0 i⟩ : Fin 50000) k) : EReal) * B (ix2 k (⟨(i 1).val, ValueIdx.idx2_lt1 i⟩ : Fin 256))

/-- Read at a pair of coordinates. -/
theorem product1_apply (A : Vec Ideal S50000x128 .f32) (B : Vec Ideal S128x256 .f32) (p : Fin 50000) (q : Fin 256) :
    (product1 A B (ix2 p q) : EReal) = ∑ k : Fin 128, (A (ix2 p k) : EReal) * B (ix2 k q) := rfl

/-- A block's product is the whole product's block: if the left block is rows n·5000 … of the left factor and the right
    block is the right factor, then entry j of the block product is the whole product at row n·5000 + j₀, column j₁. -/
theorem blockProduct1_eq (x0 : Vec Ideal S5000x128 .f32) (x1 : Vec Ideal S128x256 .f32)
    (A : Vec Ideal S50000x128 .f32) (B : Vec Ideal S128x256 .f32) (j : S5000x256.Idx) (i : S50000x256.Idx) (n : Nat)
    (h0 : ∀ (y : S5000x128.Idx) (z : S50000x128.Idx), (z 0).val = n * 5000 + (y 0).val → (z 1).val = (y 1).val → x0 y = A z)
    (h1 : ∀ y : S128x256.Idx, x1 y = B y)
    (hi0 : (i 0).val = n * 5000 + (j 0).val) (hi1 : (i 1).val = (j 1).val) :
    k1_pay1 (F := Ideal) x0 x1 j = product1 A B i := by
  obtain ⟨p, q, rfl⟩ : ∃ (p : Fin 5000) (q : Fin 256), j = ix2 p q := ⟨j 0, j 1, ValueIdx.eq_ix2 j⟩
  obtain ⟨r, s, rfl⟩ : ∃ (r : Fin 50000) (s : Fin 256), i = ix2 r s := ⟨i 0, i 1, ValueIdx.eq_ix2 i⟩
  have hr : r.val = n * 5000 + p.val := hi0
  have hs : s = q := Fin.ext hi1
  subst hs
  refine (blockProduct1_apply x0 x1 p s).trans ?_
  refine Eq.trans ?_ (product1_apply A B r s).symm
  refine Finset.sum_congr rfl fun k _ => ?_
  rw [h0 (ix2 p k) (ix2 r k) hr rfl, h1]

/-- The printed index maps over the grid: the left factor's block moves with the output's along the rows, the right
    factor's block never moves, and the output's block at point t is block t of the rows. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product of the factors as the region finds them. -/
theorem flushed1_eq (c : Dev nD) (t : Fin cfg1.N) :
    (dat1 (F := Ideal) V c).flushed 2 t = ((cfg1.win 2).blk t).view.read (Elt Ideal) (product1 (lhs1 V c) (rhs1 V c)) := by
  show (cfg1.win 2).cut (grid1.coords t) ((dat1 V c).after 2 t) = _
  rw [after1_2]
  unfold out1_2
  rw [View.canon_unit_zero zeroOffsets1]
  simp only [View.ld_unit_zero (S := S5000x128) zeroOffsets1, View.ld_unit_zero (S := S128x256) zeroOffsets1]
  obtain ⟨e0, e1, e2, e3, e4, e5⟩ := blockIndex1 t
  funext j
  show k1_pay1 (iblk1 V c 0 t) (iblk1 V c 1 t) j = product1 (lhs1 V c) (rhs1 V c) (((cfg1.win 2).blk t).view.emb j)
  refine blockProduct1_eq _ _ _ _ j _ t.val ?_ ?_ ?_ ?_
  · intro y z hz0 hz1
    show V c (Pipeline.arrRef spec1 0) (((cfg1.win 0).blk t).view.emb y) = V c (Pipeline.arrRef spec1 0) z
    refine congrArg _ (funext fun a => Fin.ext ?_)
    match a with
    | ⟨0, _⟩ => show win1_0.index t (0 : Fin 2) * 5000 + 1 * (y 0).val = (z 0).val; omega
    | ⟨1, _⟩ => show win1_0.index t (1 : Fin 2) * 128 + 1 * (y 1).val = (z 1).val; omega
  · intro y
    show V c (Pipeline.arrRef spec1 1) (((cfg1.win 1).blk t).view.emb y) = V c (Pipeline.arrRef spec1 1) y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 256 + 1 * (y 1).val = (y 1).val; omega
  · show win1_2.index t (0 : Fin 2) * 5000 + 1 * (j 0).val = t.val * 5000 + (j 0).val; omega
  · show win1_2.index t (1 : Fin 2) * 256 + 1 * (j 1).val = (j 1).val; omega

/-- An index of the output is in point t's block iff each coordinate is in the block's range on its axis. -/
theorem mem_block1 (t : Fin cfg1.N) (i : S50000x256.Idx) :
    i ∈ ((cfg1.win 2).blk t).view.set ↔ ∀ a : Fin 2, win1_2.index t a * S5000x256.size a ≤ (i a).val ∧ (i a).val < win1_2.index t a * S5000x256.size a + S5000x256.size a := by
  show i ∈ ((View.whole main_v33).slice (win1_2.rect t)).set ↔ _
  rw [View.set_slice_whole, Rect.mem_set_unit]
  exact Iff.rfl

/-- The blocks cover the output: row r lies in the block of point r / 5000, and every column in every block. -/
theorem covered1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, e4, e5⟩ := blockIndex1 t
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- So after the last write-back the output array is the whole product of the factors as the region finds them. -/
theorem final1 (c : Dev nD) : (dat1 (F := Ideal) V c).arrAt 2 cfg1.N = product1 (lhs1 V c) (rhs1 V c) :=
  (dat1 V c).arrAt_eq_of_cover 2 (product1 (lhs1 V c) (rhs1 V c)) (fun t _ => flushed1_eq V c t) covered1

theorem region1_value (c : Dev nD) (p : Fin 50000) (q : Fin 256) :
    (res1 V c (ix2 p q) : EReal) = ∑ k : Fin 128, (lhs1 V c (ix2 p k) : EReal) * rhs1 V c (ix2 k q) :=
  (congrFun (final1 V c) (ix2 p q)).trans (product1_apply (lhs1 V c) (rhs1 V c) p q)

end Cert.KernelIdeal.RegionValue

end
-- ==== Proof.RefStages.lean ====
/-
  The reference's dense products and bias stages read at an index (p, q) given by its coordinates: a product's entry
  is the sum over k of left (p, k) · right (k, q); the first layer's activation is max (aggregate + bias) 0, the second
  layer's result is aggregate + bias, the bias read at column q.
-/
import proofs.«412266_j28767690948708_1_alg».proof.Proof.RefRead
import Idealize.ShloMosaic.Lib.ValueIdx

noncomputable section

namespace Cert.ReferenceIdeal.RefValue

open Cert.ReferenceIdeal Cert.ReferenceIdeal.Gen Cert.ReferenceIdeal.ReadP Idealize.ShloMosaic
open Idealize.ShloMosaic.ValueIdx (ix1 ix2)

section
variable (x0 : (⟨S50000x1, .i32⟩ : BufTy).Contents (Elt Ideal)) (x1 : (⟨S2x800000, .i32⟩ : BufTy).Contents (Elt Ideal))
  (x2 : (⟨S4096x128, .f32⟩ : BufTy).Contents (Elt Ideal)) (x3 : (⟨S128x256, .f32⟩ : BufTy).Contents (Elt Ideal))
  (x4 : (⟨S256, .f32⟩ : BufTy).Contents (Elt Ideal)) (x5 : (⟨S256x128, .f32⟩ : BufTy).Contents (Elt Ideal))

/-- The first layer's product at (p, q). -/
theorem product1_at (p : Fin 50000) (q : Fin 256) :
    val_main_v39 (F := Ideal) x0 x2 x3 (ix2 p q)
      = ∑ k : Fin 128, (val_main_v38 (F := Ideal) x0 x2 (ix2 p k) : EReal) * x3 (ix2 k q) := by
  rw [val_main_v39_apply]
  refine Finset.sum_congr rfl fun k _ => ?_
  -- the left factor is read at (p, k), the right one at (k, q)
  have el : lidx_main_v39 (ix2 p q) k = ix2 p k := by
    funext a; refine Fin.ext ?_
    match a with
    | ⟨0, _⟩ => rfl
    | ⟨1, _⟩ => rfl
  have er : ridx_main_v39 (ix2 p q) k = ix2 k q := by
    funext a; refine Fin.ext ?_
    match a with
    | ⟨0, _⟩ => rfl
    | ⟨1, _⟩ => rfl
  rw [el, er]

/-- The second layer's product at (p, q). -/
theorem product2_at (p : Fin 50000) (q : Fin 128) :
    val_main_v57 (F := Ideal) x0 x1 x2 x3 x4 x5 (ix2 p q)
      = ∑ k : Fin 256, (val_main_v56 (F := Ideal) x0 x1 x2 x3 x4 (ix2 p k) : EReal) * x5 (ix2 k q) := by
  rw [val_main_v57_apply]
  refine Finset.sum_congr rfl fun k _ => ?_
  -- the left factor is read at (p, k), the right one at (k, q)
  have el : lidx_main_v57 (ix2 p q) k = ix2 p k := by
    funext a; refine Fin.ext ?_
    match a with
    | ⟨0, _⟩ => rfl
    | ⟨1, _⟩ => rfl
  have er : ridx_main_v57 (ix2 p q) k = ix2 k q := by
    funext a; refine Fin.ext ?_
    match a with
    | ⟨0, _⟩ => rfl
    | ⟨1, _⟩ => rfl
  rw [el, er]
end

section
variable {F : FTy → Type} [FloatOps F]
variable (x0 : (⟨S50000x1, .i32⟩ : BufTy).Contents (Elt F)) (x1 : (⟨S2x800000, .i32⟩ : BufTy).Contents (Elt F))
  (x2 : (⟨S4096x128, .f32⟩ : BufTy).Contents (Elt F)) (x3 : (⟨S128x256, .f32⟩ : BufTy).Contents (Elt F))
  (x4 : (⟨S256, .f32⟩ : BufTy).Contents (Elt F)) (x5 : (⟨S256x128, .f32⟩ : BufTy).Contents (Elt F))
  (x6 : (⟨S128, .f32⟩ : BufTy).Contents (Elt F))

/-- The first layer's activation at (p, q). -/
theorem activation1_at (p : Fin 50000) (q : Fin 256) :
    val_main_v56 (F := F) x0 x1 x2 x3 x4 (ix2 p q)
      = FloatOps.maximumf (FloatOps.addf (val_main_v52 (F := F) x0 x1 x2 x3 (ix2 p q)) (x4 (ix1 q))) (FloatOps.ofBits .f32 0x00000000#32) := by
  -- the bias, laid along the rows, is read at column q
  have hi : idx_main_v53 (idx_main_v54 (ix2 p q)) = ix1 q := by
    funext a; refine Fin.ext ?_
    match a with
    | ⟨0, _⟩ => rfl
  rw [val_main_v56_apply, val_main_v55_apply, val_main_v54_apply, val_main_v53_apply, val_main_call1_v0_apply,
    val_main_call1_cst_apply, hi]

/-- The result at (p, q). -/
theorem result_at (p : Fin 50000) (q : Fin 128) :
    val_main_v73 (F := F) x0 x1 x2 x3 x4 x5 x6 (ix2 p q)
      = FloatOps.addf (val_main_v70 (F := F) x0 x1 x2 x3 x4 x5 (ix2 p q)) (x6 (ix1 q)) := by
  -- the bias, laid along the rows, is read at column q
  have hi : idx_main_v71 (idx_main_v72 (ix2 p q)) = ix1 q := by
    funext a; refine Fin.ext ?_
    match a with
    | ⟨0, _⟩ => rfl
  rw [val_main_v73_apply, val_main_v72_apply, val_main_v71_apply, hi]
end

end Cert.ReferenceIdeal.RefValue

end
-- ==== Proof.Match1.lean ====
/-
  The first dense region's output is the reference's first product, when the region finds the looked-up rows
  and the first weight matrix.
-/
import proofs.«412266_j28767690948708_1_alg».proof.Proof.Region1
import proofs.«412266_j28767690948708_1_alg».proof.Proof.RefStages
set_option maxRecDepth 16384

noncomputable section

namespace Cert.KernelIdeal.Match

open Cert.KernelIdeal Cert.KernelIdeal.Gen Cert.KernelIdeal.RegionValue Idealize.ShloMosaic Idealize.ShloMosaic.TcCoe Idealize.SL.Sem
open Cert.ReferenceIdeal.ReadP (val_main_v38 val_main_v39 val_main_v52 val_main_v56 val_main_v57 val_main_v70 val_main_v73)
open Idealize.ShloMosaic.ValueIdx (ix1 ix2)

variable (V : (c : Dev nD) → (b : Ref sig .tc) → Buf (Elt Ideal) ((c : Thread nD τ).loc b))

theorem product1_eq (c : Dev nD) (x0 : (⟨Cert.ReferenceIdeal.S50000x1, .i32⟩ : BufTy).Contents (Elt Ideal)) (x2 : (⟨Cert.ReferenceIdeal.S4096x128, .f32⟩ : BufTy).Contents (Elt Ideal)) (x3 : (⟨Cert.ReferenceIdeal.S128x256, .f32⟩ : BufTy).Contents (Elt Ideal))
    (hl : lhs1 V c = val_main_v38 (F := Ideal) x0 x2) (hr : rhs1 V c = x3) :
    res1 V c = val_main_v39 (F := Ideal) x0 x2 x3 := by
  -- entry by entry: both sides are the sum over k of left (p, k) times right (k, q), and the factors agree
  funext i
  obtain ⟨p, q, rfl⟩ : ∃ (p : Fin 50000) (q : Fin 256), i = ix2 p q := ⟨i 0, i 1, ValueIdx.eq_ix2 i⟩
  refine (region1_value V c p q).trans ?_
  refine Eq.trans ?_ (Cert.ReferenceIdeal.RefValue.product1_at x0 x2 x3 p q).symm
  refine Finset.sum_congr rfl fun k _ => ?_
  rw [congrFun hl (ix2 p k), congrFun hr (ix2 k q)]

end Cert.KernelIdeal.Match

end
-- ==== Proof.Region2.lean ====
/-
  Region 2, the first layer's bias and rectifier: entry (p, q) of the output is max (x (p, q) + b (0, q)) 0.
-/
import proofs.«412266_j28767690948708_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx (ix2)

variable {F : FTy → Type} [FloatOps F]
variable (V : (c : Dev nD) → (b : Ref sig .tc) → Buf (Elt F) ((c : Thread nD τ).loc b))

/-- The aggregated features (50000 × 256), as the region finds them. -/
abbrev arg2 (c : Dev nD) : Vec F S50000x256 .f32 := V c (Pipeline.arrRef spec2 0)
/-- The bias as one row (1 × 256), as the region finds it. -/
abbrev bias2 (c : Dev nD) : Vec F S1x256 .f32 := V c (Pipeline.arrRef spec2 1)
/-- The region's output array after its last write-back. -/
abbrev res2 (c : Dev nD) : Vec F S50000x256 .f32 := (dat2 (F := F) V c).arrAt 2 cfg2.N

/-! ## The bias add and rectifier as one function of the two whole arrays -/

/-- The body loads and stores through the rectangle at offsets (0, 0). -/
theorem origin2 : (![0, 0] : Fin 2 → Nat) = fun _ => 0 :=
  funext fun a => by match a with | ⟨0, _⟩ => rfl | ⟨1, _⟩ => rfl

/-- Every row of the features gets the one bias row added to it, column by column, and what is below
    the zero of the float type is raised to it. -/
abbrev rowBiasRelu2 (x : S50000x256.Idx → Elt F .f32) (b : S1x256.Idx → Elt F .f32) : S50000x256.Idx → Elt F .f32 :=
  fun i => FloatOps.maximumf (FloatOps.addf (x i) (b (ix2 (0 : Fin 1) (i 1 : Fin 256)))) (FloatOps.ofBits .f32 0x00000000#32)

/-- The body's arithmetic at one entry of its 5000 × 256 block: the two casts keep the shape, the
    broadcast of the one row to 5000 rows reads row 0 at the same column, and the constant it is
    compared with is the same zero at every entry. -/
theorem pay2_apply (x0 : Vec F S5000x256 .f32) (x1 : Vec F S1x256 .f32) (p : Fin 5000) (q : Fin 256) :
    k2_pay1 x0 x1 (ix2 p q)
      = FloatOps.maximumf (FloatOps.addf (x0 (ix2 p q)) (x1 (ix2 (0 : Fin 1) q))) (FloatOps.ofBits .f32 0x00000000#32) := by
  unfold k2_pay1
  show FloatOps.maximumf
      (FloatOps.addf (shapeCast S5000x256 x0 shapeCasts_S5000x256_S5000x256 (ix2 p q))
        (broadcastTo S5000x256 (shapeCast S1x256 x1 shapeCasts_S1x256_S1x256) broadcasts_S1x256_S5000x256 (ix2 p q)))
      (FloatOps.ofBits .f32 0x00000000#32) = _
  rw [shapeCast_self, shapeCast_self,
    broadcastTo_apply x1 broadcasts_S1x256_S5000x256 (ix2 p q) (ix2 (0 : Fin 1) q)
      (fun a => by match a with | ⟨0, _⟩ => rfl | ⟨1, _⟩ => rfl)]

/-- The block maps over the ten grid points: the features' block and the output's block are both the
    point's own block of rows, at column block 0; the bias is block (0, 0) at every point. -/
theorem blocks2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One entry of a block the body writes, once each operand's entry is known to be the whole array's. -/
theorem entry2 (x : S50000x256.Idx → Elt F .f32) (b : S1x256.Idx → Elt F .f32)
    (x0 : Vec F S5000x256 .f32) (x1 : Vec F S1x256 .f32) (j : S5000x256.Idx) (i : S50000x256.Idx)
    (h0 : x0 j = x i)
    (h1 : x1 (ix2 (0 : Fin 1) (j 1 : Fin 256)) = b (ix2 (0 : Fin 1) (i 1 : Fin 256))) :
    k2_pay1 x0 x1 j = rowBiasRelu2 x b i := by
  obtain ⟨p, q, rfl⟩ : ∃ (p : Fin 5000) (q : Fin 256), j = ix2 p q := ⟨j 0, j 1, ValueIdx.eq_ix2 j⟩
  exact (pay2_apply x0 x1 p q).trans
    (congrArg₂ (fun u v => FloatOps.maximumf (FloatOps.addf u v) (FloatOps.ofBits .f32 0x00000000#32)) h0 h1)

/-- WHAT GRID POINT t WRITES BACK: block t of that function of the two arrays as the region finds them.
    Row r of the point's block is row 5000·t + r of the features; the bias block is the whole row. -/
theorem flushed2_eq (c : Dev nD) (t : Fin cfg2.N) :
    (dat2 V c).flushed 2 t
      = ((cfg2.win 2).blk t).view.read (Elt F) (rowBiasRelu2 (arg2 V c) (bias2 V c)) := by
  show (cfg2.win 2).cut (grid2.coords t) ((dat2 V c).after 2 t) = _
  rw [after2_2]
  unfold out2_2
  rw [View.canon_unit_zero origin2]
  simp only [View.ld_unit_zero (S := S5000x256) origin2, View.ld_unit_zero (S := S1x256) origin2]
  obtain ⟨e0, e1, e2, e3, e4, e5⟩ := blocks2 t
  funext j
  show k2_pay1 (iblk2 V c 0 t) (iblk2 V c 1 t) j
      = rowBiasRelu2 (arg2 V c) (bias2 V c) (((cfg2.win 2).blk t).view.emb j)
  refine entry2 (arg2 V c) (bias2 V c) _ _ j _ ?_ ?_
  · show V c (Pipeline.arrRef spec2 0) (((cfg2.win 0).blk t).view.emb j)
        = V c (Pipeline.arrRef spec2 0) (((cfg2.win 2).blk t).view.emb j)
    refine congrArg _ (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 256 + 1 * (j 1).val = win2_2.index t (1 : Fin 2) * 256 + 1 * (j 1).val
      omega
  · show V c (Pipeline.arrRef spec2 1) (((cfg2.win 1).blk t).view.emb (ix2 (0 : Fin 1) (j 1 : Fin 256)))
        = V c (Pipeline.arrRef spec2 1) (ix2 (0 : Fin 1) ((((cfg2.win 2).blk t).view.emb j) 1 : Fin 256))
    refine congrArg _ (funext fun a => Fin.ext ?_)
    match a with
    | ⟨0, _⟩ =>
      show win2_1.index t (0 : Fin 2) * 1 + 1 * 0 = 0
      omega
    | ⟨1, _⟩ =>
      show win2_1.index t (1 : Fin 2) * 256 + 1 * (j 1).val = win2_2.index t (1 : Fin 2) * 256 + 1 * (j 1).val
      omega

/-- An index of the output array is in point t's block iff each coordinate is in the block's range. -/
theorem mem_blk2 (t : Fin cfg2.N) (i : S50000x256.Idx) :
    i ∈ ((cfg2.win 2).blk t).view.set ↔
      ∀ a : Fin 2, win2_2.index t a * S5000x256.size a ≤ (i a).val
        ∧ (i a).val < win2_2.index t a * S5000x256.size a + S5000x256.size a := by
  show i ∈ ((View.whole main_v48).slice (win2_2.rect t)).set ↔ _
  rw [View.set_slice_whole, Rect.mem_set_unit]
  exact Iff.rfl

/-- The ten blocks of 5000 rows fill the 50000 rows: row r lies in the block of point r / 5000. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, e4, e5⟩ := blocks2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 256 ≤ (i 1).val ∧ (i 1).val < win2_2.index t (1 : Fin 2) * 256 + 256
    omega

/-- THE ARRAY after the last write-back is that function of the two arrays the region found. -/
theorem final2 (c : Dev nD) : (dat2 V c).arrAt 2 cfg2.N = rowBiasRelu2 (arg2 V c) (bias2 V c) :=
  (dat2 V c).arrAt_eq_of_cover 2 _ (fun t _ => flushed2_eq V c t) cover2

theorem region2_value (c : Dev nD) (p : Fin 50000) (q : Fin 256) :
    res2 V c (ix2 p q) = FloatOps.maximumf (FloatOps.addf (arg2 V c (ix2 p q)) (bias2 V c (ix2 (0 : Fin 1) q))) (FloatOps.ofBits .f32 0x00000000#32) :=
  congrFun (final2 V c) (ix2 p q)

end Cert.KernelIdeal.RegionValue

end
-- ==== Proof.Match2.lean ====
/-
  The bias-and-rectifier region's output is the reference's first activation, when the region finds the first
  aggregate and the first bias laid out as one row.
-/
import proofs.«412266_j28767690948708_1_alg».proof.Proof.Region2
import proofs.«412266_j28767690948708_1_alg».proof.Proof.RefStages
set_option maxRecDepth 16384

noncomputable section

namespace Cert.KernelIdeal.Match

open Cert.KernelIdeal Cert.KernelIdeal.Gen Cert.KernelIdeal.RegionValue Idealize.ShloMosaic Idealize.ShloMosaic.TcCoe Idealize.SL.Sem
open Cert.ReferenceIdeal.ReadP (val_main_v38 val_main_v39 val_main_v52 val_main_v56 val_main_v57 val_main_v70 val_main_v73)
open Idealize.ShloMosaic.ValueIdx (ix1 ix2)

variable (V : (c : Dev nD) → (b : Ref sig .tc) → Buf (Elt Ideal) ((c : Thread nD τ).loc b))

theorem activation1_eq (c : Dev nD) (x0 : (⟨Cert.ReferenceIdeal.S50000x1, .i32⟩ : BufTy).Contents (Elt Ideal)) (x1 : (⟨Cert.ReferenceIdeal.S2x800000, .i32⟩ : BufTy).Contents (Elt Ideal)) (x2 : (⟨Cert.ReferenceIdeal.S4096x128, .f32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal))
    (ha : arg2 V c = val_main_v52 (F := Ideal) x0 x1 x2 x3)
    (hb : bias2 V c = shapeCast S1x256 (x4 : (⟨S256, .f32⟩ : BufTy).Contents (Elt Ideal)) shapeCasts_S256_S1x256) :
    res2 V c = val_main_v56 (F := Ideal) x0 x1 x2 x3 x4 := by
  funext i
  obtain ⟨p, q, rfl⟩ : ∃ (p : Fin 50000) (q : Fin 256), i = ix2 p q := ⟨i 0, i 1, ValueIdx.eq_ix2 i⟩
  -- the summand from the features is the first aggregate's entry
  have harg : arg2 V c (ix2 p q) = val_main_v52 (F := Ideal) x0 x1 x2 x3 (ix2 p q) := congrFun ha _
  -- the one-row layout of the bias reads, in row 0 at column q, the bias at q
  have hbias : bias2 V c (ix2 (0 : Fin 1) q) = x4 (ix1 q) := by
    rw [hb]
    exact ValueIdx.shapeCast_a_1a_apply _ _ 0 q
  rw [region2_value V c p q, Cert.ReferenceIdeal.RefValue.activation1_at x0 x1 x2 x3 x4 p q, harg, hbias]

end Cert.KernelIdeal.Match

end
-- ==== Proof.Region3.lean ====
/-
  Region 3, the second layer's dense product: entry (p, q) of the output is the sum over k of
  lhs (p, k) · rhs (k, q), the product's two format changes being the identity on extended reals.
-/
import proofs.«412266_j28767690948708_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx (ix2)

variable (V : (c : Dev nD) → (b : Ref sig .tc) → Buf (Elt Ideal) ((c : Thread nD τ).loc b))

/-- The left factor (50000 × 256), as the region finds it. -/
abbrev lhs3 (c : Dev nD) : Vec Ideal S50000x256 .f32 := V c (Pipeline.arrRef spec3 0)
/-- The right factor (256 × 128), as the region finds it. -/
abbrev rhs3 (c : Dev nD) : Vec Ideal S256x128 .f32 := V c (Pipeline.arrRef spec3 1)
/-- The region's output array after its last write-back. -/
abbrev res3 (c : Dev nD) : Vec Ideal S50000x128 .f32 := (dat3 (F := Ideal) V c).arrAt 2 cfg3.N

/-- The block product's left operand index, along axis 0: the output's row. -/
theorem blockLhs3_row (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- Along axis 1: the contraction index. -/
theorem blockLhs3_col (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- The right operand index, along axis 0: the contraction index. -/
theorem blockRhs3_row (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- Along axis 1: the output's column. -/
theorem blockRhs3_col (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- One block's product at entry (p, q): the sum over k of the left block at (p, k) times the right block at (k, q);
    the two narrowings to the 16-bit format and the cast to the same shape change nothing on extended reals, and the
    accumulator is the zero splat. -/
theorem blockProduct3_apply (x0 : Vec Ideal S5000x256 .f32) (x1 : Vec Ideal S256x128 .f32) (p : Fin 5000) (q : Fin 128) :
    (k3_pay1 (F := Ideal) x0 x1 (ix2 p q) : EReal) = ∑ k : Fin 256, (x0 (ix2 p k) : EReal) * x1 (ix2 k q) := by
  unfold k3_pay1
  simp only [matmul, shapeCast_self]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact blockLhs3_row _ _
    | ⟨1, _⟩ => exact (blockLhs3_col _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (blockRhs3_row _ _).trans hk
    | ⟨1, _⟩ => exact blockRhs3_col _ _)
  rw [el, er]
  rfl

/-- The offsets of a whole-block access are all zero. -/
theorem zeroOffsets3 : (![0, 0] : Fin 2 → Nat) = fun _ => 0 := funext fun a => by fin_cases a <;> rfl

/-- The dense product of the whole factors: entry (p, q) is the sum over k of left (p, k) times right (k, q). -/
def product3 (A : Vec Ideal S50000x256 .f32) (B : Vec Ideal S256x128 .f32) : Vec Ideal S50000x128 .f32 :=
  fun i => ∑ k : Fin 256, (A (ix2 (⟨(i 0).val, ValueIdx.idx2_lt0 i⟩ : Fin 50000) k) : EReal) * B (ix2 k (⟨(i 1).val, ValueIdx.idx2_lt1 i⟩ : Fin 128))

/-- Read at a pair of coordinates. -/
theorem product3_apply (A : Vec Ideal S50000x256 .f32) (B : Vec Ideal S256x128 .f32) (p : Fin 50000) (q : Fin 128) :
    (product3 A B (ix2 p q) : EReal) = ∑ k : Fin 256, (A (ix2 p k) : EReal) * B (ix2 k q) := rfl

/-- A block's product is the whole product's block: if the left block is rows n·5000 … of the left factor and the right
    block is the right factor, then entry j of the block product is the whole product at row n·5000 + j₀, column j₁. -/
theorem blockProduct3_eq (x0 : Vec Ideal S5000x256 .f32) (x1 : Vec Ideal S256x128 .f32)
    (A : Vec Ideal S50000x256 .f32) (B : Vec Ideal S256x128 .f32) (j : S5000x128.Idx) (i : S50000x128.Idx) (n : Nat)
    (h0 : ∀ (y : S5000x256.Idx) (z : S50000x256.Idx), (z 0).val = n * 5000 + (y 0).val → (z 1).val = (y 1).val → x0 y = A z)
    (h1 : ∀ y : S256x128.Idx, x1 y = B y)
    (hi0 : (i 0).val = n * 5000 + (j 0).val) (hi1 : (i 1).val = (j 1).val) :
    k3_pay1 (F := Ideal) x0 x1 j = product3 A B i := by
  obtain ⟨p, q, rfl⟩ : ∃ (p : Fin 5000) (q : Fin 128), j = ix2 p q := ⟨j 0, j 1, ValueIdx.eq_ix2 j⟩
  obtain ⟨r, s, rfl⟩ : ∃ (r : Fin 50000) (s : Fin 128), i = ix2 r s := ⟨i 0, i 1, ValueIdx.eq_ix2 i⟩
  have hr : r.val = n * 5000 + p.val := hi0
  have hs : s = q := Fin.ext hi1
  subst hs
  refine (blockProduct3_apply x0 x1 p s).trans ?_
  refine Eq.trans ?_ (product3_apply A B r s).symm
  refine Finset.sum_congr rfl fun k _ => ?_
  rw [h0 (ix2 p k) (ix2 r k) hr rfl, h1]

/-- The printed index maps over the grid: the left factor's block moves with the output's along the rows, the right
    factor's block never moves, and the output's block at point t is block t of the rows. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole product of the factors as the region finds them. -/
theorem flushed3_eq (c : Dev nD) (t : Fin cfg3.N) :
    (dat3 (F := Ideal) V c).flushed 2 t = ((cfg3.win 2).blk t).view.read (Elt Ideal) (product3 (lhs3 V c) (rhs3 V c)) := by
  show (cfg3.win 2).cut (grid3.coords t) ((dat3 V c).after 2 t) = _
  rw [after3_2]
  unfold out3_2
  rw [View.canon_unit_zero zeroOffsets3]
  simp only [View.ld_unit_zero (S := S5000x256) zeroOffsets3, View.ld_unit_zero (S := S256x128) zeroOffsets3]
  obtain ⟨e0, e1, e2, e3, e4, e5⟩ := blockIndex3 t
  funext j
  show k3_pay1 (iblk3 V c 0 t) (iblk3 V c 1 t) j = product3 (lhs3 V c) (rhs3 V c) (((cfg3.win 2).blk t).view.emb j)
  refine blockProduct3_eq _ _ _ _ j _ t.val ?_ ?_ ?_ ?_
  · intro y z hz0 hz1
    show V c (Pipeline.arrRef spec3 0) (((cfg3.win 0).blk t).view.emb y) = V c (Pipeline.arrRef spec3 0) z
    refine congrArg _ (funext fun a => Fin.ext ?_)
    match a with
    | ⟨0, _⟩ => show win3_0.index t (0 : Fin 2) * 5000 + 1 * (y 0).val = (z 0).val; omega
    | ⟨1, _⟩ => show win3_0.index t (1 : Fin 2) * 256 + 1 * (y 1).val = (z 1).val; omega
  · intro y
    show V c (Pipeline.arrRef spec3 1) (((cfg3.win 1).blk t).view.emb y) = V c (Pipeline.arrRef spec3 1) y
    refine congrArg _ (funext fun a => Fin.ext ?_)
    match a with
    | ⟨0, _⟩ => show win3_1.index t (0 : Fin 2) * 256 + 1 * (y 0).val = (y 0).val; omega
    | ⟨1, _⟩ => show win3_1.index t (1 : Fin 2) * 128 + 1 * (y 1).val = (y 1).val; omega
  · show win3_2.index t (0 : Fin 2) * 5000 + 1 * (j 0).val = t.val * 5000 + (j 0).val; omega
  · show win3_2.index t (1 : Fin 2) * 128 + 1 * (j 1).val = (j 1).val; omega

/-- An index of the output is in point t's block iff each coordinate is in the block's range on its axis. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v49).slice (win3_2.rect t)).set ↔ _
  rw [View.set_slice_whole, Rect.mem_set_unit]
  exact Iff.rfl

/-- The blocks cover the output: row r lies in the block of point r / 5000, and every column in every block. -/
theorem covered3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, e4, e5⟩ := blockIndex3 t
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- So after the last write-back the output array is the whole product of the factors as the region finds them. -/
theorem final3 (c : Dev nD) : (dat3 (F := Ideal) V c).arrAt 2 cfg3.N = product3 (lhs3 V c) (rhs3 V c) :=
  (dat3 V c).arrAt_eq_of_cover 2 (product3 (lhs3 V c) (rhs3 V c)) (fun t _ => flushed3_eq V c t) covered3

theorem region3_value (c : Dev nD) (p : Fin 50000) (q : Fin 128) :
    (res3 V c (ix2 p q) : EReal) = ∑ k : Fin 256, (lhs3 V c (ix2 p k) : EReal) * rhs3 V c (ix2 k q) :=
  (congrFun (final3 V c) (ix2 p q)).trans (product3_apply (lhs3 V c) (rhs3 V c) p q)

end Cert.KernelIdeal.RegionValue

end
-- ==== Proof.Match3.lean ====
/-
  The second dense region's output is the reference's second product, when the region finds the first activation
  and the second weight matrix.
-/
import proofs.«412266_j28767690948708_1_alg».proof.Proof.Region3
import proofs.«412266_j28767690948708_1_alg».proof.Proof.RefStages
set_option maxRecDepth 16384

noncomputable section

namespace Cert.KernelIdeal.Match

open Cert.KernelIdeal Cert.KernelIdeal.Gen Cert.KernelIdeal.RegionValue Idealize.ShloMosaic Idealize.ShloMosaic.TcCoe Idealize.SL.Sem
open Cert.ReferenceIdeal.ReadP (val_main_v38 val_main_v39 val_main_v52 val_main_v56 val_main_v57 val_main_v70 val_main_v73)
open Idealize.ShloMosaic.ValueIdx (ix1 ix2)

variable (V : (c : Dev nD) → (b : Ref sig .tc) → Buf (Elt Ideal) ((c : Thread nD τ).loc b))

theorem product2_eq (c : Dev nD) (x0 : (⟨Cert.ReferenceIdeal.S50000x1, .i32⟩ : BufTy).Contents (Elt Ideal)) (x1 : (⟨Cert.ReferenceIdeal.S2x800000, .i32⟩ : BufTy).Contents (Elt Ideal)) (x2 : (⟨Cert.ReferenceIdeal.S4096x128, .f32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S256x128, .f32⟩ : BufTy).Contents (Elt Ideal))
    (hl : lhs3 V c = val_main_v56 (F := Ideal) x0 x1 x2 x3 x4) (hr : rhs3 V c = x5) :
    res3 V c = val_main_v57 (F := Ideal) x0 x1 x2 x3 x4 x5 := by
  funext i
  obtain ⟨p, q, rfl⟩ : ∃ (p : Fin 50000) (q : Fin 128), i = ix2 p q := ⟨i 0, i 1, ValueIdx.eq_ix2 i⟩
  -- both sides at (p, q) are the sum over k of left (p, k) · right (k, q), and the factors agree
  have h1 := region3_value V c p q
  have h2 := Cert.ReferenceIdeal.RefValue.product2_at x0 x1 x2 x3 x4 x5 p q
  rw [hl, hr] at h1
  exact h1.trans h2.symm

end Cert.KernelIdeal.Match

end
-- ==== Proof.Region4.lean ====
/-
  Region 4, the second layer's bias: entry (p, q) of the output is x (p, q) + b (0, q).
-/
import proofs.«412266_j28767690948708_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat Cfg Window)
open Idealize.ShloMosaic.ValueIdx (ix2)

variable {F : FTy → Type} [FloatOps F]
variable (V : (c : Dev nD) → (b : Ref sig .tc) → Buf (Elt F) ((c : Thread nD τ).loc b))

/-- The aggregated features (50000 × 128), as the region finds them. -/
abbrev arg4 (c : Dev nD) : Vec F S50000x128 .f32 := V c (Pipeline.arrRef spec4 0)
/-- The bias as one row (1 × 128), as the region finds it. -/
abbrev bias4 (c : Dev nD) : Vec F S1x128 .f32 := V c (Pipeline.arrRef spec4 1)
/-- The region's output array after its last write-back. -/
abbrev res4 (c : Dev nD) : Vec F S50000x128 .f32 := (dat4 (F := F) V c).arrAt 2 cfg4.N

/-! ## The bias add as one function of the two whole arrays -/

/-- The body loads and stores through the rectangle at offsets (0, 0). -/
theorem origin4 : (![0, 0] : Fin 2 → Nat) = fun _ => 0 :=
  funext fun a => by match a with | ⟨0, _⟩ => rfl | ⟨1, _⟩ => rfl

/-- Every row of the features gets the one bias row added to it, column by column. -/
abbrev rowBias4 (x : S50000x128.Idx → Elt F .f32) (b : S1x128.Idx → Elt F .f32) : S50000x128.Idx → Elt F .f32 :=
  fun i => FloatOps.addf (x i) (b (ix2 (0 : Fin 1) (i 1 : Fin 128)))

/-- The body's arithmetic at one entry of its 5000 × 128 block: the two casts keep the shape, and the
    broadcast of the one row to 5000 rows reads row 0 at the same column. -/
theorem pay4_apply (x0 : Vec F S5000x128 .f32) (x1 : Vec F S1x128 .f32) (p : Fin 5000) (q : Fin 128) :
    k4_pay1 x0 x1 (ix2 p q) = FloatOps.addf (x0 (ix2 p q)) (x1 (ix2 (0 : Fin 1) q)) := by
  unfold k4_pay1
  show FloatOps.addf (shapeCast S5000x128 x0 shapeCasts_S5000x128_S5000x128 (ix2 p q))
      (broadcastTo S5000x128 (shapeCast S1x128 x1 shapeCasts_S1x128_S1x128) broadcasts_S1x128_S5000x128 (ix2 p q)) = _
  rw [shapeCast_self, shapeCast_self,
    broadcastTo_apply x1 broadcasts_S1x128_S5000x128 (ix2 p q) (ix2 (0 : Fin 1) q)
      (fun a => by match a with | ⟨0, _⟩ => rfl | ⟨1, _⟩ => rfl)]

/-- The block maps over the ten grid points: the features' block and the output's block are both the
    point's own block of rows, at column block 0; the bias is block (0, 0) at every point. -/
theorem blocks4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- One entry of a block the body writes, once each operand's entry is known to be the whole array's:
    the sum of the feature entry and of the bias entry in row 0 of the same column. -/
theorem entry4 (x : S50000x128.Idx → Elt F .f32) (b : S1x128.Idx → Elt F .f32)
    (x0 : Vec F S5000x128 .f32) (x1 : Vec F S1x128 .f32) (j : S5000x128.Idx) (i : S50000x128.Idx)
    (h0 : x0 j = x i)
    (h1 : x1 (ix2 (0 : Fin 1) (j 1 : Fin 128)) = b (ix2 (0 : Fin 1) (i 1 : Fin 128))) :
    k4_pay1 x0 x1 j = rowBias4 x b i := by
  obtain ⟨p, q, rfl⟩ : ∃ (p : Fin 5000) (q : Fin 128), j = ix2 p q := ⟨j 0, j 1, ValueIdx.eq_ix2 j⟩
  exact (pay4_apply x0 x1 p q).trans (congrArg₂ FloatOps.addf h0 h1)

/-- WHAT GRID POINT t WRITES BACK: block t of the row-wise bias add of the two arrays as the region finds
    them. Row r of the point's block is row 5000·t + r of the features; the bias block is the whole row. -/
theorem flushed4_eq (c : Dev nD) (t : Fin cfg4.N) :
    (dat4 V c).flushed 2 t
      = ((cfg4.win 2).blk t).view.read (Elt F) (rowBias4 (arg4 V c) (bias4 V c)) := by
  show (cfg4.win 2).cut (grid4.coords t) ((dat4 V c).after 2 t) = _
  rw [after4_2]
  unfold out4_2
  rw [View.canon_unit_zero origin4]
  simp only [View.ld_unit_zero (S := S5000x128) origin4, View.ld_unit_zero (S := S1x128) origin4]
  obtain ⟨e0, e1, e2, e3, e4, e5⟩ := blocks4 t
  funext j
  show k4_pay1 (iblk4 V c 0 t) (iblk4 V c 1 t) j
      = rowBias4 (arg4 V c) (bias4 V c) (((cfg4.win 2).blk t).view.emb j)
  refine entry4 (arg4 V c) (bias4 V c) _ _ j _ ?_ ?_
  · show V c (Pipeline.arrRef spec4 0) (((cfg4.win 0).blk t).view.emb j)
        = V c (Pipeline.arrRef spec4 0) (((cfg4.win 2).blk t).view.emb j)
    refine congrArg _ (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 128 + 1 * (j 1).val = win4_2.index t (1 : Fin 2) * 128 + 1 * (j 1).val
      omega
  · show V c (Pipeline.arrRef spec4 1) (((cfg4.win 1).blk t).view.emb (ix2 (0 : Fin 1) (j 1 : Fin 128)))
        = V c (Pipeline.arrRef spec4 1) (ix2 (0 : Fin 1) ((((cfg4.win 2).blk t).view.emb j) 1 : Fin 128))
    refine congrArg _ (funext fun a => Fin.ext ?_)
    match a with
    | ⟨0, _⟩ =>
      show win4_1.index t (0 : Fin 2) * 1 + 1 * 0 = 0
      omega
    | ⟨1, _⟩ =>
      show win4_1.index t (1 : Fin 2) * 128 + 1 * (j 1).val = win4_2.index t (1 : Fin 2) * 128 + 1 * (j 1).val
      omega

/-- An index of the output array is in point t's block iff each coordinate is in the block's range. -/
theorem mem_blk4 (t : Fin cfg4.N) (i : S50000x128.Idx) :
    i ∈ ((cfg4.win 2).blk t).view.set ↔
      ∀ a : Fin 2, win4_2.index t a * S5000x128.size a ≤ (i a).val
        ∧ (i a).val < win4_2.index t a * S5000x128.size a + S5000x128.size a := by
  show i ∈ ((View.whole main_v64).slice (win4_2.rect t)).set ↔ _
  rw [View.set_slice_whole, Rect.mem_set_unit]
  exact Iff.rfl

/-- The ten blocks of 5000 rows fill the 50000 rows: row r lies in the block of point r / 5000. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 10 := N_4
  obtain ⟨t, ht⟩ : ∃ t : Fin cfg4.N, t.val = (i 0).val / 5000 := ⟨⟨(i 0).val / 5000, by omega⟩, rfl⟩
  obtain ⟨-, -, -, -, e4, e5⟩ := blocks4 t
  refine ⟨t, flush4_2 t, ?_⟩
  rw [mem_blk4]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- THE ARRAY after the last write-back is the row-wise bias add of the two arrays the region found. -/
theorem final4 (c : Dev nD) : (dat4 V c).arrAt 2 cfg4.N = rowBias4 (arg4 V c) (bias4 V c) :=
  (dat4 V c).arrAt_eq_of_cover 2 _ (fun t _ => flushed4_eq V c t) cover4

theorem region4_value (c : Dev nD) (p : Fin 50000) (q : Fin 128) :
    res4 V c (ix2 p q) = FloatOps.addf (arg4 V c (ix2 p q)) (bias4 V c (ix2 (0 : Fin 1) q)) :=
  congrFun (final4 V c) (ix2 p q)

end Cert.KernelIdeal.RegionValue

end
-- ==== Proof.Match4.lean ====
/-
  The last region's output is the reference's result, when the region finds the second aggregate and the second
  bias laid out as one row.
-/
import proofs.«412266_j28767690948708_1_alg».proof.Proof.Region4
import proofs.«412266_j28767690948708_1_alg».proof.Proof.RefStages
set_option maxRecDepth 16384

noncomputable section

namespace Cert.KernelIdeal.Match

open Cert.KernelIdeal Cert.KernelIdeal.Gen Cert.KernelIdeal.RegionValue Idealize.ShloMosaic Idealize.ShloMosaic.TcCoe Idealize.SL.Sem
open Cert.ReferenceIdeal.ReadP (val_main_v38 val_main_v39 val_main_v52 val_main_v56 val_main_v57 val_main_v70 val_main_v73)
open Idealize.ShloMosaic.ValueIdx (ix1 ix2)

variable (V : (c : Dev nD) → (b : Ref sig .tc) → Buf (Elt Ideal) ((c : Thread nD τ).loc b))

theorem result_eq (c : Dev nD) (x0 : (⟨Cert.ReferenceIdeal.S50000x1, .i32⟩ : BufTy).Contents (Elt Ideal)) (x1 : (⟨Cert.ReferenceIdeal.S2x800000, .i32⟩ : BufTy).Contents (Elt Ideal)) (x2 : (⟨Cert.ReferenceIdeal.S4096x128, .f32⟩ : BufTy).Contents (Elt Ideal)) (x3 : (⟨Cert.ReferenceIdeal.S128x256, .f32⟩ : BufTy).Contents (Elt Ideal)) (x4 : (⟨Cert.ReferenceIdeal.S256, .f32⟩ : BufTy).Contents (Elt Ideal)) (x5 : (⟨Cert.ReferenceIdeal.S256x128, .f32⟩ : BufTy).Contents (Elt Ideal)) (x6 : (⟨Cert.ReferenceIdeal.S128, .f32⟩ : BufTy).Contents (Elt Ideal))
    (ha : arg4 V c = val_main_v70 (F := Ideal) x0 x1 x2 x3 x4 x5)
    (hb : bias4 V c = shapeCast S1x128 (x6 : (⟨S128, .f32⟩ : BufTy).Contents (Elt Ideal)) shapeCasts_S128_S1x128) :
    res4 V c = val_main_v73 (F := Ideal) x0 x1 x2 x3 x4 x5 x6 := by
  funext i
  obtain ⟨p, q, rfl⟩ : ∃ (p : Fin 50000) (q : Fin 128), i = ix2 p q := ⟨i 0, i 1, ValueIdx.eq_ix2 i⟩
  -- the summand from the features is the second aggregate's entry
  have harg : arg4 V c (ix2 p q) = val_main_v70 (F := Ideal) x0 x1 x2 x3 x4 x5 (ix2 p q) := congrFun ha _
  -- the one-row layout of the bias reads, in row 0 at column q, the bias at q
  have hbias : bias4 V c (ix2 (0 : Fin 1) q) = x6 (ix1 q) := by
    rw [hb]
    exact ValueIdx.shapeCast_a_1a_apply _ _ 0 q
  rw [region4_value V c p q, Cert.ReferenceIdeal.RefValue.result_at x0 x1 x2 x3 x4 x5 x6 p q, harg, hbias]

end Cert.KernelIdeal.Match

end
-- ==== Proof.Bridge.lean ====
/-
  The kernel's result, region by region, is the reference's: the lookup, the first product, its aggregate, the
  first activation, the second product, its aggregate, and the result with its bias, each the reference's stage of
  the same arguments. The ids' range, which only the lookup needs, comes from the precondition.
-/
import proofs.«412266_j28767690948708_1_alg».proof.Proof.HostChainB
import proofs.«412266_j28767690948708_1_alg».proof.Proof.Match0
import proofs.«412266_j28767690948708_1_alg».proof.Proof.Match1
import proofs.«412266_j28767690948708_1_alg».proof.Proof.Match2
import proofs.«412266_j28767690948708_1_alg».proof.Proof.Match3
import proofs.«412266_j28767690948708_1_alg».proof.Proof.Match4

set_option maxRecDepth 16384

noncomputable section

namespace Cert.KernelIdeal.Bridge

open Cert.KernelIdeal Cert.KernelIdeal.Gen Cert.KernelIdeal.HostChain Cert.KernelIdeal.Match Cert.KernelIdeal.RegionValue
open Idealize.ShloMosaic Idealize.ShloMosaic.TcCoe Idealize.SL.Sem
open Cert.ReferenceIdeal.ReadP (val_main_v38 val_main_v39 val_main_v52 val_main_v56 val_main_v57 val_main_v70 val_main_v73)

variable (m : (ℓ : Loc nD τ sig) → Buf (Elt Ideal) ℓ) (ρ : Dev nD → PrngReg) (c : Dev nD)
variable (hrange : ∀ i : Cert.ReferenceIdeal.S50000x1.Idx, 0 ≤ ((m ((c : Thread nD τ).loc main_arg0)) i).toInt ∧ ((m ((c : Thread nD τ).loc main_arg0)) i).toInt < 4096)

include hrange

/-- After the embedding region: the looked-up rows. -/
theorem looked_up : W4 m ρ c (Proc.devRef .tc main_v32) = val_main_v38 (F := Ideal) (m ((c : Thread nD τ).loc main_arg0)) (m ((c : Thread nD τ).loc main_arg2)) :=
  (W4_arr m ρ c 2).trans (lookup_eq (V3 m ρ) c _ _ (entry_arg0 m ρ c) (entry_tab m ρ c) hrange)

/-- After the first dense region: the first product. -/
theorem product1 : W5 m ρ c (Proc.devRef .tc main_v33) = val_main_v39 (F := Ideal) (m ((c : Thread nD τ).loc main_arg0)) (m ((c : Thread nD τ).loc main_arg2)) (m ((c : Thread nD τ).loc main_arg3)) :=
  (W5_arr m ρ c 2).trans (product1_eq (V4 m ρ) c _ _ _ (looked_up m ρ c hrange) (mid_arg3 m ρ c))

/-- Before the first bias region: the first product aggregated over the graph. -/
theorem aggregate1 : W6 m ρ c (Proc.devRef .tc main_v46) = val_main_v52 (F := Ideal) (m ((c : Thread nD τ).loc main_arg0)) (m ((c : Thread nD τ).loc main_arg1)) (m ((c : Thread nD τ).loc main_arg2)) (m ((c : Thread nD τ).loc main_arg3)) :=
  (found_aggr1 m ρ c).trans ((congrArg (aggr1 (m ((c : Thread nD τ).loc main_arg1))) (product1 m ρ c hrange)).trans (aggr1_ref _ _ _ _).symm)

/-- After the first bias region: the first activation. -/
theorem activation1 : W7 m ρ c (Proc.devRef .tc main_v48) = val_main_v56 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W7_arr m ρ c 2).trans (activation1_eq (V6 m ρ) c _ _ _ _ _ (aggregate1 m ρ c hrange) (found_bias1 m ρ c))

/-- After the second dense region: the second product. -/
theorem product2 : W8 m ρ c (Proc.devRef .tc main_v49) = val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W8_arr m ρ c 2).trans (product2_eq (V7 m ρ) c _ _ _ _ _ _ (activation1 m ρ c hrange) (late_arg5 m ρ c))

/-- Before the last region: the second product aggregated over the graph. -/
theorem aggregate2 : W9 m ρ c (Proc.devRef .tc main_v62) = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (found_aggr2 m ρ c).trans ((congrArg (aggr2 (m ((c : Thread nD τ).loc main_arg1))) (product2 m ρ c hrange)).trans (aggr2_ref _ _ _ _ _ _).symm)

/-- After the last region: the result. -/
theorem result : W10 m ρ c (Proc.devRef .tc main_v64) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W10_arr m ρ c 2).trans (result_eq (V9 m ρ) c _ _ _ _ _ _ _ (aggregate2 m ρ c hrange) (found_bias2 m ρ c))

end Cert.KernelIdeal.Bridge

end
-- ==== Proof.lean ====
/-
  The claim: a two-layer graph convolution over a graph given as an edge list, every node with a self loop.
  Node p starts from row id p of an embedding table; each layer multiplies the features by a weight matrix,
  carries every source's row to its target scaled by 1/√(deg source · deg target), adds the rows up at each target and
  adds a bias, the first layer then taking max(·, 0).

  The kernel does the lookup as a one-hot product, row p of the one-hot matrix being 1 at column id p and 0
  elsewhere: Σ_v [v = id p] · table v = table (id p), whatever the table holds, since 0 · x = 0 on the extended
  reals. That needs id p to BE a column, 0 ≤ id p < 4096, which is the precondition's index-range conjunct; the
  reference's lookup, which would wrap a negative id and clamp any id into the table, then reads the same row. The
  two dense products are Σ_k left (p, k) · right (k, q) on both sides, the kernel's changes of format being the
  identity on extended reals; the bias and the rectifier are pointwise; and the aggregation over the graph is the same
  operations applied to the same edge list in both programs, so it is carried as one function and never opened.
  The kernel's @main is five kernel regions among host operations: its run is the generated one with the result
  buffer named, each region's output array is one whole-array function of what the region finds, and the chain of
  these is the reference's chain of stages.
-/
import proofs.«412266_j28767690948708_1_alg».proof.Defs
import proofs.«412266_j28767690948708_1_alg».proof.Proof.Gen.Kernel
import proofs.«412266_j28767690948708_1_alg».proof.Proof.Gen.Kernel.Skeleton
import proofs.«412266_j28767690948708_1_alg».proof.Proof.Gen.Kernel.Launch
import proofs.«412266_j28767690948708_1_alg».proof.Proof.Gen.Kernel.Points
import proofs.«412266_j28767690948708_1_alg».proof.Proof.Gen.Kernel.Frame
import proofs.«412266_j28767690948708_1_alg».proof.Proof.Gen.KernelIdeal
import proofs.«412266_j28767690948708_1_alg».proof.Proof.Gen.KernelIdeal.Skeleton
import proofs.«412266_j28767690948708_1_alg».proof.Proof.Gen.KernelIdeal.Launch
import proofs.«412266_j28767690948708_1_alg».proof.Proof.Gen.KernelIdeal.Points
import proofs.«412266_j28767690948708_1_alg».proof.Proof.Gen.KernelIdeal.Frame
import proofs.«412266_j28767690948708_1_alg».proof.Proof.Gen.ReferenceIdeal
import proofs.«412266_j28767690948708_1_alg».proof.Proof.Gen.Pre_finite_inputs
import proofs.«412266_j28767690948708_1_alg».proof.Proof.KernelRun
import proofs.«412266_j28767690948708_1_alg».proof.Proof.PreRange
import proofs.«412266_j28767690948708_1_alg».proof.Proof.RefValue
import proofs.«412266_j28767690948708_1_alg».proof.Proof.Bridge
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the reference's last stage of the shared arguments: the kernel's run by the chain of its
    regions, the reference's by its run read back. -/
theorem algebraic : Cert.algebraic_KernelIdeal_ReferenceIdeal := by
  intro m ρ m' ρ' hpre hagree
  -- every id is a row number of the table
  have hrange : ∀ (c : Dev Cert.KernelIdeal.nD) (i : Cert.ReferenceIdeal.S50000x1.Idx),
      0 ≤ ((m ((c.tc : Thread Cert.KernelIdeal.nD Cert.KernelIdeal.τ).loc Cert.KernelIdeal.main_arg0)) i).toInt ∧ ((m ((c.tc : Thread Cert.KernelIdeal.nD Cert.KernelIdeal.τ).loc Cert.KernelIdeal.main_arg0)) i).toInt < 4096 :=
    fun c i => Cert.Pre_finite_inputs.Range.ids_in_range _ _ _ _ _ _ _ (hpre c) i
  refine ⟨fun c => Cert.ReferenceIdeal.ReadP.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Bridge.result m ρ c (hrange c)), (h c).2⟩)
      (Cert.KernelIdeal.GenP.run_result m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v73_eq]
    obtain ⟨h0, h1, h2, h3, h4, h5, h6⟩ := hagree c
    rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
